-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000 : Shape := ⟨1, ![50000]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S2x2 : S_.BroadcastsInDim S2x2 (![] : Fin 0 → Fin S2x2.rank)
  reducesTo_S2x2_S_d0_1 : S2x2.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_v28 : IVec S_ 1) (main_v33 : IVec S50000 1) : IVec S_ 1 :=
  let main_c_12 : IVec S_ 1 := constantI S_ 1 1#1
  let main_v34 : IVec S_ 1 := (fun x v => Host.reduce IntOp.andi x v reducesTo_S50000_S_d0 h_S_) main_v33 main_c_12
  let main_v35 : IVec S_ 1 := andi main_v28 main_v34
  main_v35

def fn_part1 {F : FTy → Type} [FloatOps F] (main_arg3 : IVec S50000 32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg3 main_v29
  let main_c_11 : IVec S_ 32 := constantI S_ 32 2#32
  let main_v31 : IVec S50000 32 := broadcastInDim S50000 ![] bcast_S_S50000 main_c_11
  let main_v32 : IVec S50000 1 := cmpi .slt main_arg3 main_v31
  let main_v33 : IVec S50000 1 := andi main_v30 main_v32
  fn_part2 (F := F) main_v28 main_v33

def fn {F : FTy → Type} [FloatOps F] (main_arg0 : IVec S800000 32) (main_arg1 : IVec S800000 32) (main_arg2 : FVec F S50000 .f32) (main_arg3 : IVec S50000 32) (main_arg4 : FVec F S2x2 .f32) (main_arg5 : FVec F S3x128 .f32) (main_arg6 : FVec F S128 .f32) (main_arg7 : FVec F S128x128 .f32) (main_arg8 : FVec F S128 .f32) : IVec S_ 1 :=
  let main_v0 : FVec F S50000 .f32 := Host.absf main_arg2
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S2x2 .f32 := Host.absf main_arg4
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg7 main_arg8 main_v13 main_v16
-- ==== Kernel.lean ====
abbrev S800000 : Shape := ⟨1, ![800000]⟩
abbrev S50000 : Shape := ⟨1, ![50000]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S50000x1 : Shape := ⟨2, ![50000, 1]⟩
abbrev S1x2 : Shape := ⟨2, ![1, 2]⟩
abbrev S50000x2 : Shape := ⟨2, ![50000, 2]⟩
abbrev S50000x3 : Shape := ⟨2, ![50000, 3]⟩
abbrev S800000x3 : Shape := ⟨2, ![800000, 3]⟩
abbrev S1x128 : Shape := ⟨2, ![1, 128]⟩
abbrev S50000x128 : Shape := ⟨2, ![50000, 128]⟩
abbrev S5000x3 : Shape := ⟨2, ![5000, 3]⟩
abbrev S5000x1 : Shape := ⟨2, ![5000, 1]⟩
abbrev S5000x128 : Shape := ⟨2, ![5000, 128]⟩
abbrev S800000x128 : Shape := ⟨2, ![800000, 128]⟩

abbrev nBuf : Space → Nat
  | .hbm => 78
  | .vmem => 18
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .f32⟩
  | .hbm, ⟨3, _⟩ => ⟨S50000, .i32⟩
  | .hbm, ⟨4, _⟩ => ⟨S2x2, .f32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .i32⟩
  | .hbm, ⟨34, _⟩ => ⟨S1x2, .i32⟩
  | .hbm, ⟨35, _⟩ => ⟨S50000x2, .i32⟩
  | .hbm, ⟨36, _⟩ => ⟨S50000x2, .i32⟩
  | .hbm, ⟨37, _⟩ => ⟨S50000x2, .i1⟩
  | .hbm, ⟨38, _⟩ => ⟨S50000x2, .f32⟩
  | .hbm, ⟨39, _⟩ => ⟨S50000x2, .f32⟩
  | .hbm, ⟨40, _⟩ => ⟨S50000x1, .f32⟩
  | .hbm, ⟨41, _⟩ => ⟨S50000x3, .f32⟩
  | .hbm, ⟨42, _⟩ => ⟨S50000x1, .f32⟩
  | .hbm, ⟨43, _⟩ => ⟨S50000x1, .f32⟩
  | .hbm, ⟨44, _⟩ => ⟨S50000x3, .f32⟩
  | .hbm, ⟨45, _⟩ => ⟨S50000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S_, .f32⟩
  | .hbm, ⟨56, _⟩ => ⟨S50000x3, .f32⟩
  | .hbm, ⟨57, _⟩ => ⟨S800000x1, .i32⟩
  | .hbm, ⟨58, _⟩ => ⟨S50000x3, .f32⟩
  | .hbm, ⟨59, _⟩ => ⟨S1x128, .f32⟩
  | .hbm, ⟨60, _⟩ => ⟨S50000x128, .f32⟩
  | .hbm, ⟨61, _⟩ => ⟨S50000x128, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .bf16⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S1x128, .f32⟩
  | .hbm, ⟨77, _⟩ => ⟨S50000x128, .f32⟩
  | .local _ .vmem, ⟨0, _⟩ => ⟨S5000x3, .f32⟩
  | .local _ .vmem, ⟨1, _⟩ => ⟨S5000x3, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S3x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  bcast_S1x2_S50000x2_0_1 : S1x2.BroadcastsInDim S50000x2 (![0, 1] : Fin 2 → Fin S50000x2.rank)
  concatenates_S50000x1_S50000x2_S50000x3_d1 : Shape.Concatenates [S50000x1, S50000x2] S50000x3 1
  bcast_S50000x1_S50000x3_0_1 : S50000x1.BroadcastsInDim S50000x3 (![0, 1] : Fin 2 → Fin S50000x3.rank)
  bcast_S_S50000x3 : S_.BroadcastsInDim S50000x3 (![] : Fin 0 → Fin S50000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  dot_S50000x2_S2x2_S50000x2_1_0_0_1_n_n_wf : DotDims.WF S50000x2 S2x2 S50000x2 [1] [0] [0] [1] [] []
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S5000x3_S3x128_S5000x128_1_0_0_1_n_n_wf : DotDims.WF S5000x3 S3x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x2_S2x2_S50000x2_1_0_0_1_n_n : DotDims S50000x2 S2x2 S50000x2 where
  lhsContracting := [1]
  rhsContracting := [0]
  lhsNonContracting := [0]
  rhsNonContracting := [1]
  lhsBatch := []
  rhsBatch := []
  wf := dot_S50000x2_S2x2_S50000x2_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S800000 : Shape := ⟨1, ![800000]⟩
abbrev S50000 : Shape := ⟨1, ![50000]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S_ : Shape := ⟨0, ![]⟩
abbrev S50000x1 : Shape := ⟨2, ![50000, 1]⟩
abbrev S50000x2 : Shape := ⟨2, ![50000, 2]⟩
abbrev S50000x3 : Shape := ⟨2, ![50000, 3]⟩
abbrev S800000x1 : Shape := ⟨2, ![800000, 1]⟩
abbrev S800000x3 : Shape := ⟨2, ![800000, 3]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 122
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .f32⟩
  | .hbm, ⟨3, _⟩ => ⟨S50000, .i32⟩
  | .hbm, ⟨4, _⟩ => ⟨S2x2, .f32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x2, .f32⟩
  | .hbm, ⟨18, _⟩ => ⟨S50000x1, .f32⟩
  | .hbm, ⟨19, _⟩ => ⟨S50000x3, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x3, .f32⟩
  | .hbm, ⟨43, _⟩ => ⟨S50000x3, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x3, .f32⟩
  | .hbm, ⟨53, _⟩ => ⟨S_, .f32⟩
  | .hbm, ⟨54, _⟩ => ⟨S50000x3, .f32⟩
  | .hbm, ⟨55, _⟩ => ⟨S800000x1, .i32⟩
  | .hbm, ⟨56, _⟩ => ⟨S50000x3, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x3, .f32⟩
  | .hbm, ⟨62, _⟩ => ⟨S50000x3, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S_, .f32⟩
  | .hbm, ⟨69, _⟩ => ⟨S50000x128, .f32⟩
  | .hbm, ⟨70, _⟩ => ⟨S50000x128, .i1⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S800000, .f32⟩
  | .hbm, ⟨77, _⟩ => ⟨S_, .f32⟩
  | .hbm, ⟨78, _⟩ => ⟨S50000, .f32⟩
  | .hbm, ⟨79, _⟩ => ⟨S800000x1, .i32⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S800000x1, .i32⟩
  | .hbm, ⟨88, _⟩ => ⟨S50000, .f32⟩
  | .hbm, ⟨89, _⟩ => ⟨S_, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v42 : Ref sig .tc := ⟨.hbm, 74, rfl⟩
abbrev main_cst_11 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_call3_v0 : Ref sig .tc := ⟨.hbm, 82, rfl⟩
abbrev main_call3_v1 : Ref sig .tc := ⟨.hbm, 83, rfl⟩
abbrev main_v47 : Ref sig .tc := ⟨.hbm, 84, rfl⟩
abbrev main_cst_14 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_15 : Ref sig .tc := ⟨.hbm, 89, rfl⟩
abbrev main_call4_v0 : Ref sig .tc := ⟨.hbm, 90, rfl⟩
abbrev main_call4_v1 : Ref sig .tc := ⟨.hbm, 91, rfl⟩
abbrev main_v51 : Ref sig .tc := ⟨.hbm, 92, rfl⟩
abbrev main_cst_16 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_17 : Ref sig .tc := ⟨.hbm, 99, rfl⟩
abbrev main_v57 : Ref sig .tc := ⟨.hbm, 100, rfl⟩
abbrev main_v58 : Ref sig .tc := ⟨.hbm, 101, rfl⟩
abbrev main_c_18 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_19 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_20 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x2_S50000x3_d1 : Shape.Concatenates [S50000x1, S50000x2] S50000x3 1
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x3_0_1 : S50000x1.BroadcastsInDim S50000x3 (![0, 1] : Fin 2 → Fin S50000x3.rank)
  bcast_S_S50000x3 : S_.BroadcastsInDim S50000x3 (![] : Fin 0 → Fin S50000x3.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S2x2_S50000x1_S50000x2_1_0_n_n_0_1_12_wf : GatherDims.WF S2x2 S50000x1 S50000x2 [1] [0] [] [0] [] 1 ![1, 2]
  scatter_S50000_S800000x1_S800000_n_0_0_1_wf : ScatterDims.WF S50000 S800000x1 S800000 [] [0] [0] 1
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S50000x3_S3x128_S50000x128_1_0_0_1_n_n_wf : DotDims.WF S50000x3 S3x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S2x2_S50000x1_S50000x2_1_0_n_n_0_1_12 : GatherDims S2x2 S50000x1 S50000x2 where
  offsetDims := [1]
  collapsedSliceDims := [0]
  operandBatchingDims := []
  startIndicesBatchingDims := []
  startIndexMap := [0]
  indexVectorDim := 1
  sliceSizes := ![1, 2]
  wf := gather_S2x2_S50000x1_S50000x2_1_0_n_n_0_1_12_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer graph convolution both programs compute, stage by stage, as whole-array functions of the arguments.

  With `deg⁻¹ᐟ²(idx)` the vector `max(1, #{e | idx e = n})^(-1/2)` over the 50000 nodes (a scatter-add of ones over
  the 800000 edges, clamped below by one, raised to -1/2), `o = deg⁻¹ᐟ²(src)`, `ι = deg⁻¹ᐟ²(dst)`, and
  `agg x = Σ_{e : dst e = n} x[src e]` (a row gather by `src`, negative indices wrapped by 50000, then a row
  scatter-add by `dst`):
    feats = [weight | E]                       (50000 × 3; E the 50000 × 2 embedding rows of `significance`)
    H     = leaky((agg(feats · o) · ι) W0 + b0) · o          (50000 × 128; leaky x = x if x ≥ 0 else 0.01·x)
    out   = (agg(H) · ι) W1 + b1                              (50000 × 128)
  The two programs differ in how E is made (a gather of `emb`'s rows against a one-hot product with `emb`), in which
  stages run inside a pipelined kernel over blocks of 5000 rows, and in how the bias row is laid out; everything else is
  the same operations on the same values, which is why the stages are named here once and never opened again.
-/
import proofs.«430867_j90091234000961_2_alg».proof.ReferenceIdeal

noncomputable section

namespace Cert.Gcn

open Idealize.ShloMosaic Idealize.ShloMosaic.TcCoe
open Cert.ReferenceIdeal Cert.ReferenceIdeal.Facts₀

variable {F : FTy → Type} [FloatOps F] [Cert.ReferenceIdeal.Facts]

/-- A node-index vector with negative entries wrapped by the number of nodes (NumPy's negative indexing). -/
def wrapNode (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- An edge-index vector as the one-column index table a gather or scatter reads. -/
def edgeCol (idx : IVec S800000 32) : IVec S800000x1 32 :=
  broadcastInDim S800000x1 ![0] bcast_S800000_S800000x1_0 idx

/-- A per-node vector as a column. -/
def nodeCol (v : FVec F S50000 .f32) : FVec F S50000x1 .f32 :=
  broadcastInDim S50000x1 ![0] bcast_S50000_S50000x1_0 v

/-- A bias vector as a row. -/
def biasRow (b : FVec F S128 .f32) : FVec F S1x128 .f32 :=
  broadcastInDim S1x128 ![1] bcast_S128_S1x128_1 b

/-- `max(1, #{e | idx e = n})`: the clamped degree of node `n` among the edge ends `idx`. -/
def degClamped (idx : IVec S800000 32) : FVec F S50000 .f32 :=
  maximumf (broadcastInDim S50000 ![] bcast_S_S50000 (constant S_ .f32 0x3F800000#32))
    (Host.scatterAdd scatter_S50000_S800000x1_S800000_n_0_0_1
      (broadcastInDim S50000 ![] bcast_S_S50000 (constant S_ .f32 0x00000000#32)) (edgeCol idx)
      (broadcastInDim S800000 ![] bcast_S_S800000 (constant S_ .f32 0x3F800000#32)))

/-- The clamped degree raised to `-1/2`. -/
def degInvSqrt (idx : IVec S800000 32) : FVec F S50000 .f32 :=
  Host.powf (degClamped idx) (broadcastInDim S50000 ![] bcast_S_S50000 (constant S_ .f32 0xBF000000#32))

/-- The 50000 × 3 node features: the weight column beside the two embedding columns. -/
def feats (weight : FVec F S50000 .f32) (E : FVec F S50000x2 .f32) : FVec F S50000x3 .f32 :=
  concatenate S50000x3 1 [⟨S50000x1, nodeCol weight⟩, ⟨S50000x2, E⟩] concatenates_S50000x1_S50000x2_S50000x3_d1

/-- Neighbour aggregation of 3-wide rows: gather the rows at `src`, scatter-add them at `dst`. -/
def agg3 (x : FVec F S50000x3 .f32) (src dst : IVec S800000 32) : FVec F S50000x3 .f32 :=
  Host.scatterAdd scatter_S50000x3_S800000x1_S800000x3_1_0_0_1
    (broadcastInDim S50000x3 ![] bcast_S_S50000x3 (constant S_ .f32 0x00000000#32)) (edgeCol dst)
    (Host.gather gather_S50000x3_S800000x1_S800000x3_1_0_n_n_0_1_13 x (edgeCol (wrapNode src)))

/-- Neighbour aggregation of 128-wide rows. -/
def agg128 (x : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32)) (edgeCol dst)
    (Host.gather gather_S50000x128_S800000x1_S800000x128_1_0_n_n_0_1_1128 x (edgeCol (wrapNode src)))

/-- The features scaled row by row by a per-node column. -/
def scale3 (x : FVec F S50000x3 .f32) (col : FVec F S50000x1 .f32) : FVec F S50000x3 .f32 :=
  mulf x (broadcastInDim S50000x3 ![0, 1] bcast_S50000x1_S50000x3_0_1 col)

/-- 128-wide rows scaled row by row by a per-node column. -/
def scale128 (x : FVec F S50000x128 .f32) (col : FVec F S50000x1 .f32) : FVec F S50000x128 .f32 :=
  mulf x (broadcastInDim S50000x128 ![0, 1] bcast_S50000x1_S50000x128_0_1 col)

/-- `x` where `x ≥ 0`, else `0.01·x` (the literal is f32's nearest to 0.01, the same word in both programs). -/
def leaky (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (constant S_ .f32 0x3C23D70A#32)) x)

/-- The first dense stage: `leaky((A · ι) W0 + b0) · o`, over the whole 50000 rows. -/
def dense0 (A : FVec F S50000x3 .f32) (ιcol ocol : FVec F S50000x1 .f32) (W0 : FVec F S3x128 .f32)
    (b0row : FVec F S1x128 .f32) : FVec F S50000x128 .f32 :=
  scale128 (leaky (addf (Host.dotGeneral dot_S50000x3_S3x128_S50000x128_1_0_0_1_n_n none (scale3 A ιcol) W0)
    (broadcastInDim S50000x128 ![0, 1] bcast_S1x128_S50000x128_0_1 b0row))) ocol

/-- The second dense stage: `(A · ι) W1 + b1`, over the whole 50000 rows. -/
def dense1 (A : FVec F S50000x128 .f32) (ιcol : FVec F S50000x1 .f32) (W1 : FVec F S128x128 .f32)
    (b1row : FVec F S1x128 .f32) : FVec F S50000x128 .f32 :=
  addf (Host.dotGeneral dot_S50000x128_S128x128_S50000x128_1_0_0_1_n_n none (scale128 A ιcol) W1)
    (broadcastInDim S50000x128 ![0, 1] bcast_S1x128_S50000x128_0_1 b1row)

/-- The whole network from the argument arrays, the embedding rows `E` and the two bias rows given. -/
def net (src dst : IVec S800000 32) (weight : FVec F S50000 .f32) (E : FVec F S50000x2 .f32) (W0 : FVec F S3x128 .f32)
    (b0row : FVec F S1x128 .f32) (W1 : FVec F S128x128 .f32) (b1row : FVec F S1x128 .f32) : FVec F S50000x128 .f32 :=
  dense1 (agg128 (dense0 (agg3 (scale3 (feats weight E) (nodeCol (degInvSqrt src))) src dst)
      (nodeCol (degInvSqrt dst)) (nodeCol (degInvSqrt src)) W0 b0row) src dst)
    (nodeCol (degInvSqrt dst)) W1 b1row

/-- The reference's embedding rows: `emb`'s row at each node's `significance`, negative indices wrapped by 2 and the
    start clamped into the table (the host gather's reading of an out-of-range start). -/
def embedGather (emb : FVec F S2x2 .f32) (sig : IVec S50000 32) : FVec F S50000x2 .f32 :=
  Host.gather gather_S2x2_S50000x1_S50000x2_1_0_n_n_0_1_12 emb
    (broadcastInDim S50000x1 ![0] bcast_S50000_S50000x1_0
      (select (cmpi .slt sig (broadcastInDim S50000 ![] bcast_S_S50000 (constantI S_ 32 0#32)))
        (addi sig (broadcastInDim S50000 ![] bcast_S_S50000 (constantI S_ 32 2#32))) sig))

end Cert.Gcn

end
-- ==== Proof.SpecK.lean ====
/-
  The kernel program's own way of making the 50000 × 2 embedding rows: a one-hot matrix of `significance` against the two
  table indices (1 where the node's value equals the column's index, else 0), times the 2 × 2 table.
-/
import proofs.«430867_j90091234000961_2_alg».proof.KernelIdeal

noncomputable section

namespace Cert.Gcn

open Idealize.ShloMosaic Idealize.ShloMosaic.TcCoe
open Cert.KernelIdeal Cert.KernelIdeal.Facts₀

variable {F : FTy → Type} [FloatOps F] [Cert.KernelIdeal.Facts]

/-- Row `n` is `Σ_k [significance n = k] · emb[k, ·]`. -/
def embedOneHot (emb : FVec F S2x2 .f32) (sig : IVec S50000 32) : FVec F S50000x2 .f32 :=
  Host.dotGeneral dot_S50000x2_S2x2_S50000x2_1_0_0_1_n_n none
    (uitofp .f32 (cmpi .eq
      (broadcastInDim S50000x2 ![0, 1] bcast_S50000x1_S50000x2_0_1 (broadcastInDim S50000x1 ![0] bcast_S50000_S50000x1_0 sig))
      (broadcastInDim S50000x2 ![0, 1] bcast_S1x2_S50000x2_0_1 (iotaInDim S1x2 32 1)))) emb

/-- A bias vector laid out as a row by a reshape. -/
def biasReshape (b : FVec F S128 .f32) : FVec F S1x128 .f32 :=
  shapeCast S1x128 b shapeCasts_S128_S1x128

end Cert.Gcn

end
-- ==== Proof.LibGatherNarrow.lean ====
/-
  A host gather taken through a narrower float format. On extended reals a change of float format is the identity, so
  narrowing an array (say from 32 to 16 bits), gathering from it, and widening what was gathered is the gather of the
  array itself — whatever the gather's dimension numbers, the shapes and the index width.
-/
import Idealize.ShloMosaic.PureOps.Ideal

noncomputable section

namespace Cert.LibGatherNarrow

open Idealize.ShloMosaic

/-- A gather of the narrowed array, widened, is the gather of the array: both format changes are the identity on
    extended reals, entry by entry. -/
theorem gather_narrow {s si t : Shape} {w : Nat} {φ ψ : FTy} (hψφ : ψ.bits < φ.bits) (d : GatherDims s si t)
    (x : FVec Ideal s φ) (idx : IVec si w) :
    (extf φ (Host.gather d (truncf ψ x hψφ) idx) hψφ : FVec Ideal t φ) = Host.gather d x idx := by
  funext j
  simp only [extf, truncf, Host.gather, Ideal.extf_def, Ideal.truncf_def]

end Cert.LibGatherNarrow

end
-- ==== Proof.SpecNarrow.lean ====
/-
  The second neighbour aggregation as the kernel program spells it: the rows pass through the 16-bit float format on the
  way into the gather and back to 32 bits on the way out. On extended reals a change of float format is the identity,
  so this is the plain aggregation.
-/
import proofs.«430867_j90091234000961_2_alg».proof.Proof.Spec
import proofs.«430867_j90091234000961_2_alg».proof.Proof.LibGatherNarrow
import Idealize.ShloMosaic.PureOps.Ideal

noncomputable section

namespace Cert.Gcn

open Idealize.ShloMosaic Idealize.ShloMosaic.TcCoe
open Cert.ReferenceIdeal Cert.ReferenceIdeal.Facts₀

variable {F : FTy → Type} [FloatOps F] [Cert.ReferenceIdeal.Facts]

/-- Neighbour aggregation of 128-wide rows with the gathered rows narrowed to 16 bits before the gather and widened after. -/
def agg128Narrow (x : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32)) (edgeCol dst)
    (extf .f32 (Host.gather gather_S50000x128_S800000x1_S800000x128_1_0_n_n_0_1_1128 (truncf .bf16 x (by decide))
      (edgeCol (wrapNode src))) (by decide))

/-- On extended reals the narrowed aggregation is the plain one. -/
theorem agg128Narrow_eq (x : FVec Ideal S50000x128 .f32) (src dst : IVec S800000 32) :
    agg128Narrow (F := Ideal) x src dst = agg128 (F := Ideal) x src dst := by
  unfold agg128Narrow agg128
  rw [Cert.LibGatherNarrow.gather_narrow]

end Cert.Gcn

end
-- ==== Proof.KerStretch.lean ====
/-
  What the kernel program's host stretches leave at the entry of each of its two kernels, as values of the launch memory,
  for any float values: before the first kernel the clamped degrees raised to -1/2 as columns, the scaled features
  aggregated over the edges, the first weight matrix and the first bias as a row; and what the stretch between the kernels
  makes of the contents it starts from.
-/
import proofs.«430867_j90091234000961_2_alg».proof.Proof.Gen.KernelIdeal.Frame
import proofs.«430867_j90091234000961_2_alg».proof.Proof.Gen.ReferenceIdeal
import proofs.«430867_j90091234000961_2_alg».proof.Proof.Spec
import proofs.«430867_j90091234000961_2_alg».proof.Proof.SpecK
import proofs.«430867_j90091234000961_2_alg».proof.Proof.SpecNarrow
import Idealize.ShloMosaic.Lib.StableHlo.Run

set_option maxRecDepth 16384

noncomputable section

namespace Cert.Gcn.KerStretch

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

-- the edge-sized scatters, gathers and the power are never opened: both sides name the same operations
attribute [local irreducible] Host.scatterAdd Host.gather Host.powf concatenate

/-! ## At the first kernel's entry -/

/-- The out-degree column. -/
theorem entry0_ocol (c : Dev nD) : (V7 m ρ c main_v17 : FVec F S50000x1 .f32)
    = Cert.Gcn.nodeCol (F := F) (Cert.Gcn.degInvSqrt (F := F) (m ((c : Thread nD τ).loc main_arg0))) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v17) = _
  after_results
  rfl

/-- The in-degree column. -/
theorem entry0_icol (c : Dev nD) : (V7 m ρ c main_v18 : FVec F S50000x1 .f32)
    = Cert.Gcn.nodeCol (F := F) (Cert.Gcn.degInvSqrt (F := F) (m ((c : Thread nD τ).loc main_arg1))) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v18) = _
  after_results
  rfl

set_option maxHeartbeats 4000000 in
/-- The aggregated scaled features. -/
theorem entry0_agg (c : Dev nD) : (V7 m ρ c main_v30 : FVec F S50000x3 .f32)
    = Cert.Gcn.agg3 (F := F)
        (Cert.Gcn.scale3 (F := F)
          (Cert.Gcn.feats (F := F) (m ((c : Thread nD τ).loc main_arg2))
            (Cert.Gcn.embedOneHot (F := F) (m ((c : Thread nD τ).loc main_arg4)) (m ((c : Thread nD τ).loc main_arg3))))
          (Cert.Gcn.nodeCol (F := F) (Cert.Gcn.degInvSqrt (F := F) (m ((c : Thread nD τ).loc main_arg0)))))
        (m ((c : Thread nD τ).loc main_arg0)) (m ((c : Thread nD τ).loc main_arg1)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v30) = _
  after_results
  rfl

/-- The first bias as a row. -/
theorem entry0_brow (c : Dev nD) : (V7 m ρ c main_v31 : FVec F S1x128 .f32)
    = Cert.Gcn.biasReshape (F := F) (m ((c : Thread nD τ).loc main_arg6)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_v31) = _
  after_results
  rfl

/-- The first weight matrix is the argument. -/
theorem entry0_W (c : Dev nD) : (V7 m ρ c main_arg5 : FVec F S3x128 .f32) = m ((c : Thread nD τ).loc main_arg5) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg5) = _
  after_results

/-- The edge sources are the argument. -/
theorem entry0_src (c : Dev nD) : (V7 m ρ c main_arg0 : IVec S800000 32) = m ((c : Thread nD τ).loc main_arg0) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg0) = _
  after_results

/-- The edge targets are the argument. -/
theorem entry0_dst (c : Dev nD) : (V7 m ρ c main_arg1 : IVec S800000 32) = m ((c : Thread nD τ).loc main_arg1) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg1) = _
  after_results

/-- The second weight matrix is the argument. -/
theorem entry0_W1 (c : Dev nD) : (V7 m ρ c main_arg7 : FVec F S128x128 .f32) = m ((c : Thread nD τ).loc main_arg7) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg7) = _
  after_results

/-- The second bias is the argument. -/
theorem entry0_b1 (c : Dev nD) : (V7 m ρ c main_arg8 : FVec F S128 .f32) = m ((c : Thread nD τ).loc main_arg8) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
    (Proc.devRef .tc main_arg8) = _
  after_results

/-! ## The stretch between the kernels, from any contents -/

set_option maxHeartbeats 4000000 in
/-- The first kernel's output aggregated over the edges (through the 16-bit format and back). -/
theorem between_agg (V : Valuation τ sig (Elt F)) :
    (StableHlo.after hostOps1 V (Proc.devRef .tc main_v44) : FVec F S50000x128 .f32)
      = Cert.Gcn.agg128Narrow (F := F) (V (Proc.devRef .tc main_v32)) (V (Proc.devRef .tc main_arg0)) (V (Proc.devRef .tc main_arg1)) := by
  after_results_simp
  rfl

/-- The second bias as a row. -/
theorem between_brow (V : Valuation τ sig (Elt F)) :
    (StableHlo.after hostOps1 V (Proc.devRef .tc main_v45) : FVec F S1x128 .f32)
      = Cert.Gcn.biasReshape (F := F) (V (Proc.devRef .tc main_arg8)) := by
  after_results
  rfl

/-- The in-degree column is not written. -/
theorem between_icol (V : Valuation τ sig (Elt F)) :
    StableHlo.after hostOps1 V (Proc.devRef .tc main_v18) = V (Proc.devRef .tc main_v18) := by
  after_results

/-- The second weight matrix is not written. -/
theorem between_W1 (V : Valuation τ sig (Elt F)) :
    StableHlo.after hostOps1 V (Proc.devRef .tc main_arg7) = V (Proc.devRef .tc main_arg7) := by
  after_results

end Cert.Gcn.KerStretch

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Region0.lean ====
/-
  The first pipelined kernel, read as a value: over its ten blocks of 5000 rows it leaves in its output array the first
  dense stage of the network, `leaky((A · ι) W0 + b0) · o`, of the arrays it finds at entry.
-/
import proofs.«430867_j90091234000961_2_alg».proof.Proof.Gen.KernelIdeal.Frame
import proofs.«430867_j90091234000961_2_alg».proof.Proof.Gen.ReferenceIdeal
import proofs.«430867_j90091234000961_2_alg».proof.Proof.Spec
import proofs.«430867_j90091234000961_2_alg».proof.Proof.LibPlainDot
import Idealize.ShloMosaic.PureOps.Ideal.Laws
import Idealize.ShloMosaic.Lib.Pipeline.Value
import Idealize.ShloMosaic.Lib.ValueIdx

set_option maxRecDepth 16384

noncomputable section

open scoped BigOperators

namespace Cert.Gcn.Region0

open Idealize.ShloMosaic Idealize.ShloMosaic.TcCoe Idealize.SL.Sem Idealize.ShloMosaic.ValueIdx
open Cert.KernelIdeal Cert.KernelIdeal.Gen

/-! ## One entry of the stage, on both sides -/
/-- `x` where `x ≥ 0`, else `0.01·x`, on one extended real. -/
def leaky1 (z : EReal) : EReal :=
  Scalar.select (FloatOps.cmpf (F := Ideal) .oge z (Ideal.ofBits .f32 0x00000000#32)) z (Ideal.ofBits .f32 0x3C23D70A#32 * z)

/-- One entry of the first dense stage from the row of features, the two per-node scalars, the column of weights and the bias. -/
def entry (a : Fin 3 → EReal) (s o : EReal) (w : Fin 3 → EReal) (b : EReal) : EReal :=
  leaky1 ((∑ k : Fin 3, a k * s * w k) + b) * o

/-- A column of a block spread over 128 lanes reads its row's entry. -/
theorem blkCol128_apply (x : Vec Ideal S5000x1 .f32) (p : Fin 5000) (q : Fin 128) :
    broadcastTo S5000x128 (shapeCast S5000x1 x shapeCasts_S5000x1_S5000x1) broadcasts_S5000x1_S5000x128 (ix2 p q) = x (ix2 p (0 : Fin 1)) := by
  rw [shapeCast_self]
  exact broadcastTo_apply x _ (ix2 p q) (ix2 p (0 : Fin 1)) (fun a => by match a with | ⟨0, _⟩ => rfl | ⟨1, _⟩ => rfl)

/-- A column of a block spread over 3 lanes reads its row's entry. -/
theorem blkCol3_apply (x : Vec Ideal S5000x1 .f32) (p : Fin 5000) (k : Fin 3) :
    broadcastTo S5000x3 (shapeCast S5000x1 x shapeCasts_S5000x1_S5000x1) broadcasts_S5000x1_S5000x3 (ix2 p k) = x (ix2 p (0 : Fin 1)) := by
  rw [shapeCast_self]
  exact broadcastTo_apply x _ (ix2 p k) (ix2 p (0 : Fin 1)) (fun a => by match a with | ⟨0, _⟩ => rfl | ⟨1, _⟩ => rfl)

/-- A row spread over the block's 5000 rows reads its lane's entry. -/
theorem blkRow_apply (x : Vec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]
  exact broadcastTo_apply x _ (ix2 p q) (ix2 (0 : Fin 1) q) (fun a => by match a with | ⟨0, _⟩ => rfl | ⟨1, _⟩ => rfl)

/-- The block's product plus bias at one entry. -/
theorem blkAffine_apply (x0 : Vec Ideal S5000x3 .f32) (x1 : Vec Ideal S5000x1 .f32) (x3 : Vec Ideal S3x128 .f32)
    (x4 : Vec Ideal S1x128 .f32) (p : Fin 5000) (q : Fin 128) :
    (addf (matmul dot_S5000x3_S3x128_S5000x128_1_0_0_1_n_n none
              (truncf .bf16
                (mulf (shapeCast S5000x3 x0 shapeCasts_S5000x3_S5000x3)
                  (broadcastTo S5000x3 (shapeCast S5000x1 x1 shapeCasts_S5000x1_S5000x1) broadcasts_S5000x1_S5000x3))
                bitsLt_bf16_f32)
              (truncf .bf16 x3 bitsLt_bf16_f32) (constant (F := Ideal) S5000x128 .f32 0x00000000#32))
            (broadcastTo S5000x128 (shapeCast S1x128 x4 shapeCasts_S1x128_S1x128) broadcasts_S1x128_S5000x128) : FVec Ideal S5000x128 .f32) (ix2 p q)
      = (∑ k : Fin 3, x0 (ix2 p k) * x1 (ix2 p (0 : Fin 1)) * x3 (ix2 k q)) + x4 (ix2 (0 : Fin 1) q) := by
  refine (addf_apply _ _ _).trans ?_
  refine congrArg₂ (· + ·) ?_ (blkRow_apply x4 p q)
  refine (Cert.LibPlainDot.matmul_plain_apply 5000 3 128 none _ _ p q).trans ?_
  refine Finset.sum_congr rfl fun k _ => ?_
  refine congrArg₂ (· * ·) ?_ rfl
  refine (mulf_apply _ _ _).trans ?_
  refine congrArg₂ (· * ·) ?_ (blkCol3_apply x1 p k)
  rw [shapeCast_self]

theorem pay_apply (x0 : Vec Ideal S5000x3 .f32) (x1 : Vec Ideal S5000x1 .f32) (x3 : Vec Ideal S3x128 .f32)
    (x4 : Vec Ideal S1x128 .f32) (x2 : Vec Ideal S5000x1 .f32) (p : Fin 5000) (q : Fin 128) :
    k0_pay1 (F := Ideal) x0 x1 x3 x4 x2 (ix2 p q)
      = entry (fun k => x0 (ix2 p k)) (x1 (ix2 p (0 : Fin 1))) (x2 (ix2 p (0 : Fin 1))) (fun k => x3 (ix2 k q)) (x4 (ix2 (0 : Fin 1) q)) := by
  unfold k0_pay1 entry
  refine (mulf_apply _ _ _).trans ?_
  refine congrArg₂ (· * ·) ?_ (blkCol128_apply x2 p q)
  exact congrArg leaky1 (blkAffine_apply x0 x1 x3 x4 p q)

/-! ## The reference's stage at one entry -/

/-- The whole-array leaky stage at one entry. -/
theorem leaky_apply (x : FVec Ideal Cert.ReferenceIdeal.S50000x128 .f32) (i : Cert.ReferenceIdeal.S50000x128.Idx) :
    Cert.Gcn.leaky (F := Ideal) x i = leaky1 (x i) := rfl

/-- A per-node column spread over 128 lanes reads its row's entry. -/
theorem arrCol128_apply (x : FVec Ideal Cert.ReferenceIdeal.S50000x1 .f32) (r : Fin 50000) (q : Fin 128) :
    broadcastInDim Cert.ReferenceIdeal.S50000x128 ![0, 1] Cert.ReferenceIdeal.Facts₀.bcast_S50000x1_S50000x128_0_1 x (ix2 r q) = x (ix2 r (0 : Fin 1)) :=
  broadcastInDim_apply _ _ x (ix2 r q) (ix2 r (0 : Fin 1)) (fun a => by match a with | ⟨0, _⟩ => rfl | ⟨1, _⟩ => rfl)

/-- A per-node column spread over 3 lanes reads its row's entry. -/
theorem arrCol3_apply (x : FVec Ideal Cert.ReferenceIdeal.S50000x1 .f32) (r : Fin 50000) (k : Fin 3) :
    broadcastInDim Cert.ReferenceIdeal.S50000x3 ![0, 1] Cert.ReferenceIdeal.Facts₀.bcast_S50000x1_S50000x3_0_1 x (ix2 r k) = x (ix2 r (0 : Fin 1)) :=
  broadcastInDim_apply _ _ x (ix2 r k) (ix2 r (0 : Fin 1)) (fun a => by match a with | ⟨0, _⟩ => rfl | ⟨1, _⟩ => rfl)

/-- The bias row spread over the 50000 rows reads its lane's entry. -/
theorem arrRow_apply (x : FVec Ideal Cert.ReferenceIdeal.S1x128 .f32) (r : Fin 50000) (q : Fin 128) :
    broadcastInDim Cert.ReferenceIdeal.S50000x128 ![0, 1] Cert.ReferenceIdeal.Facts₀.bcast_S1x128_S50000x128_0_1 x (ix2 r q) = x (ix2 (0 : Fin 1) q) :=
  broadcastInDim_apply _ _ x (ix2 r q) (ix2 (0 : Fin 1) q) (fun a => by match a with | ⟨0, _⟩ => rfl | ⟨1, _⟩ => rfl)

/-- The first dense stage at one entry. -/
theorem dense0_apply (A : FVec Ideal Cert.ReferenceIdeal.S50000x3 .f32) (sc oc : FVec Ideal Cert.ReferenceIdeal.S50000x1 .f32)
    (W0 : FVec Ideal Cert.ReferenceIdeal.S3x128 .f32) (b0 : FVec Ideal Cert.ReferenceIdeal.S1x128 .f32) (r : Fin 50000) (q : Fin 128) :
    Cert.Gcn.dense0 (F := Ideal) A sc oc W0 b0 (ix2 r q)
      = entry (fun k => A (ix2 r k)) (sc (ix2 r (0 : Fin 1))) (oc (ix2 r (0 : Fin 1))) (fun k => W0 (ix2 k q)) (b0 (ix2 (0 : Fin 1) q)) := by
  unfold Cert.Gcn.dense0 Cert.Gcn.scale128 entry
  refine (mulf_apply _ _ _).trans ?_
  refine congrArg₂ (· * ·) ?_ (arrCol128_apply oc r q)
  refine (leaky_apply _ _).trans (congrArg leaky1 ?_)
  refine (addf_apply _ _ _).trans ?_
  refine congrArg₂ (· + ·) ?_ (arrRow_apply b0 r q)
  refine (Cert.LibPlainDot.dotGeneral_plain_apply 50000 3 128 none _ _ _ r q).trans ?_
  refine Finset.sum_congr rfl fun k _ => ?_
  refine congrArg₂ (· * ·) ?_ rfl
  unfold Cert.Gcn.scale3
  refine (mulf_apply _ _ _).trans ?_
  exact congrArg₂ (· * ·) rfl (arrCol3_apply sc r k)

/-! ## From the ten blocks to the array -/

section Blocks

variable (V : (c : Dev nD) → (b : Ref sig .tc) → Buf (Elt Ideal) ((c : Thread nD τ).loc b))

theorem zeroOff : (![0, 0] : Fin 2 → Nat) = fun _ => 0 := funext fun a => by fin_cases a <;> rfl

/-- What the output array ends holding: the first dense stage of the five arrays as entered. -/
abbrev stage (c : Dev nD) : S50000x128.Idx → EReal :=
  Cert.Gcn.dense0 (F := Ideal) (V c main_v30) (V c main_v18) (V c main_v17) (V c main_arg5) (V c main_v31)

/-- The windows' index maps over the ten points: the three row-blocked inputs and the output sit at block row `t`, column block 0;
    the weights and the bias row sit at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000·t + p` of the array. -/
def row (t : Fin cfg0.N) (p : Fin 5000) : Fin 50000 :=
  ⟨5000 * t.val + p.val, by have ht : t.val < 10 := t.isLt; have hp := p.isLt; omega⟩

/-- Where an entry of the feature block sits in the feature array. -/
theorem featEmb (t : Fin cfg0.N) (p : Fin 5000) (k : Fin 3) :
    ((cfg0.win 0).blk t).view.emb (ix2 p k) = ix2 (row t p) k := by
  obtain ⟨e0, e1, -⟩ := blockIndex t
  funext a; apply Fin.ext
  match a with
  | ⟨0, _⟩ => show win0_0.index t (0 : Fin 2) * 5000 + 1 * p.val = 5000 * t.val + p.val; omega
  | ⟨1, _⟩ => show win0_0.index t (1 : Fin 2) * 3 + 1 * k.val = k.val; omega

/-- Where an entry of the in-scale column block sits in its array. -/
theorem inEmb (t : Fin cfg0.N) (p : Fin 5000) :
    ((cfg0.win 1).blk t).view.emb (ix2 p (0 : Fin 1)) = ix2 (row t p) (0 : Fin 1) := by
  obtain ⟨-, -, e0, e1, -⟩ := blockIndex t
  funext a; apply Fin.ext
  match a with
  | ⟨0, _⟩ => show win0_1.index t (0 : Fin 2) * 5000 + 1 * p.val = 5000 * t.val + p.val; omega
  | ⟨1, _⟩ => show win0_1.index t (1 : Fin 2) * 1 + 1 * 0 = 0; omega

/-- Where an entry of the out-scale column block sits in its array. -/
theorem outEmb (t : Fin cfg0.N) (p : Fin 5000) :
    ((cfg0.win 2).blk t).view.emb (ix2 p (0 : Fin 1)) = ix2 (row t p) (0 : Fin 1) := by
  obtain ⟨-, -, -, -, e0, e1, -⟩ := blockIndex t
  funext a; apply Fin.ext
  match a with
  | ⟨0, _⟩ => show win0_2.index t (0 : Fin 2) * 5000 + 1 * p.val = 5000 * t.val + p.val; omega
  | ⟨1, _⟩ => show win0_2.index t (1 : Fin 2) * 1 + 1 * 0 = 0; omega

/-- The weights are staged whole at every point. -/
theorem weightEmb (t : Fin cfg0.N) (k : Fin 3) (q : Fin 128) :
    ((cfg0.win 3).blk t).view.emb (ix2 k q) = ix2 k q := by
  obtain ⟨-, -, -, -, -, -, e0, e1, -⟩ := blockIndex t
  funext a; apply Fin.ext
  match a with
  | ⟨0, _⟩ => show win0_3.index t (0 : Fin 2) * 3 + 1 * k.val = k.val; omega
  | ⟨1, _⟩ => show win0_3.index t (1 : Fin 2) * 128 + 1 * q.val = q.val; omega

/-- The bias row is staged whole at every point. -/
theorem biasEmb (t : Fin cfg0.N) (q : Fin 128) :
    ((cfg0.win 4).blk t).view.emb (ix2 (0 : Fin 1) q) = ix2 (0 : Fin 1) q := by
  obtain ⟨-, -, -, -, -, -, -, -, e0, e1, -⟩ := blockIndex t
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- Where an entry of the output block sits in the output array. -/
theorem resultEmb (t : Fin cfg0.N) (p : Fin 5000) (q : Fin 128) :
    ((cfg0.win 5).blk t).view.emb (ix2 p q) = ix2 (row t p) q := by
  obtain ⟨-, -, -, -, -, -, -, -, -, -, e0, e1⟩ := blockIndex t
  funext a; apply Fin.ext
  match a with
  | ⟨0, _⟩ => show win0_5.index t (0 : Fin 2) * 5000 + 1 * p.val = 5000 * t.val + p.val; omega
  | ⟨1, _⟩ => show win0_5.index t (1 : Fin 2) * 128 + 1 * q.val = q.val; omega

/-- What point `t` writes back is block `t` of the first dense stage of the arrays as entered. -/
theorem flushed_eq (c : Dev nD) (t : Fin cfg0.N) :
    (dat0 (F := Ideal) V c).flushed 5 t = ((cfg0.win 5).blk t).view.read (Elt Ideal) (stage V c) := by
  show (cfg0.win 5).cut (grid0.coords t) ((dat0 (F := Ideal) V c).after 5 t) = _
  rw [after0_5]
  unfold out0_5
  rw [View.canon_unit_zero zeroOff]
  simp only [View.ld_unit_zero (S := S5000x3) zeroOff, View.ld_unit_zero (S := S5000x1) zeroOff, View.ld_unit_zero (S := S3x128) zeroOff, View.ld_unit_zero (S := S1x128) zeroOff]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 3 t) (iblk0 V c 4 t) (iblk0 V c 2 t) (ix2 p q)
    = stage V c (((cfg0.win 5).blk t).view.emb (ix2 p q))
  refine (pay_apply (iblk0 V c 0 t) (iblk0 V c 1 t) (iblk0 V c 3 t) (iblk0 V c 4 t) (iblk0 V c 2 t) p q).trans ?_
  refine Eq.trans ?_ (congrArg (stage V c) (resultEmb t p q)).symm
  refine Eq.trans ?_ (dense0_apply (V c main_v30) (V c main_v18) (V c main_v17) (V c main_arg5) (V c main_v31) (row t p) q).symm
  have h0 : (fun k : Fin 3 => iblk0 V c 0 t (ix2 p k)) = fun k => V c main_v30 (ix2 (row t p) k) :=
    funext fun k => congrArg (V c main_v30) (featEmb t p k)
  have h1 : iblk0 V c 1 t (ix2 p (0 : Fin 1)) = V c main_v18 (ix2 (row t p) (0 : Fin 1)) := congrArg (V c main_v18) (inEmb t p)
  have h2 : iblk0 V c 2 t (ix2 p (0 : Fin 1)) = V c main_v17 (ix2 (row t p) (0 : Fin 1)) := congrArg (V c main_v17) (outEmb t p)
  have h3 : (fun k : Fin 3 => iblk0 V c 3 t (ix2 k q)) = fun k => V c main_arg5 (ix2 k q) :=
    funext fun k => congrArg (V c main_arg5) (weightEmb t k q)
  have h4 : iblk0 V c 4 t (ix2 (0 : Fin 1) q) = V c main_v31 (ix2 (0 : Fin 1) q) := congrArg (V c main_v31) (biasEmb t q)
  exact congr (congr (congr (congr (congrArg entry h0) h1) h2) h3) h4

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- Every row of the output array lies in the block of the point its row number over 5000 names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by show (i 0).val / 5000 < 10; omega⟩, flush0_5 _, ?_⟩
  rw [mem_blk]
  obtain ⟨-, -, -, -, -, -, -, -, -, -, e0, e1⟩ := blockIndex ⟨(i 0).val / 5000, by show (i 0).val / 5000 < 10; omega⟩
  have e0' : win0_5.index ⟨(i 0).val / 5000, by show (i 0).val / 5000 < 10; omega⟩ (0 : Fin 2) = (i 0).val / 5000 := e0
  intro a
  match a with
  | ⟨0, _⟩ =>
    show win0_5.index _ (0 : Fin 2) * 5000 ≤ (i 0).val ∧ (i 0).val < win0_5.index _ (0 : Fin 2) * 5000 + 5000
    rw [e0']; omega
  | ⟨1, _⟩ =>
    show win0_5.index _ (1 : Fin 2) * 128 ≤ (i 1).val ∧ (i 1).val < win0_5.index _ (1 : Fin 2) * 128 + 128
    rw [e1]; omega

end Blocks

/-- After the ten grid points, the first kernel's output array is `dense0` of its five input arrays as entered. -/
theorem arr (V : (c : Dev nD) → (b : Ref sig .tc) → Buf (Elt Ideal) ((c : Thread nD τ).loc b)) (c : Dev nD) :
    ((dat0 (F := Ideal) V c).arrAt 5 cfg0.N : S50000x128.Idx → EReal)
      = Cert.Gcn.dense0 (F := Ideal) (V c main_v30) (V c main_v18) (V c main_v17) (V c main_arg5) (V c main_v31) :=
  (dat0 (F := Ideal) V c).arrAt_eq_of_cover 5 (stage V c) (fun t _ => flushed_eq V c t) cover

end Cert.Gcn.Region0

end
-- ==== Proof.Region1.lean ====
/-
  The second pipelined kernel, read as a value: over its ten blocks of 5000 rows it leaves in its output array the second
  dense stage of the network, `(A · ι) W1 + b1`, of the arrays it finds at entry.

  At output entry (5000·t + p, q) both sides are Σ_{k<128} (A[5000t+p, k] · ι[5000t+p, 0]) · W1[k, q] + b1[0, q]: the body's
  arithmetic at an entry of its block, the whole-array stage at an entry, each input block read where the output's
  rectangle says, and the ten row blocks covering the array.
-/
import proofs.«430867_j90091234000961_2_alg».proof.Proof.Gen.KernelIdeal.Frame
import proofs.«430867_j90091234000961_2_alg».proof.Proof.Gen.ReferenceIdeal
import proofs.«430867_j90091234000961_2_alg».proof.Proof.Spec
import proofs.«430867_j90091234000961_2_alg».proof.Proof.LibPlainDot
import Idealize.ShloMosaic.PureOps.Ideal.Laws
import Idealize.ShloMosaic.Lib.Pipeline.Value
import Idealize.ShloMosaic.Lib.ValueIdx

set_option maxRecDepth 16384

noncomputable section

open scoped BigOperators

namespace Cert.Gcn.Region1

open Idealize.ShloMosaic Idealize.ShloMosaic.TcCoe Idealize.SL.Sem Idealize.ShloMosaic.ValueIdx
open Cert.KernelIdeal Cert.KernelIdeal.Gen

/-! ## The two sides at one entry -/

/-- The body's arithmetic at one entry of the block. -/
theorem pay_apply (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q)
      = (∑ k : Fin 128, (x0 (ix2 p k) * x1 (ix2 p (0 : Fin 1))) * x2 (ix2 k q)) + x3 (ix2 (0 : Fin 1) q) := by
  unfold k1_pay1
  simp only [shapeCast_self]
  refine (addf_apply _ _ _).trans ?_
  congr 1
  · refine (Cert.LibPlainDot.matmul_plain_apply 5000 128 128 none _ _ p q).trans ?_
    refine Finset.sum_congr rfl fun k _ => ?_
    congr 1
    refine (mulf_apply _ _ _).trans ?_
    congr 1
    exact broadcastTo_apply x1 broadcasts_S5000x1_S5000x128 (ix2 p k) (ix2 p (0 : Fin 1)) (fun a => by
      match a with
      | ⟨0, _⟩ => rfl
      | ⟨1, _⟩ => rfl)
  · exact broadcastTo_apply x3 broadcasts_S1x128_S5000x128 (ix2 p q) (ix2 (0 : Fin 1) q) (fun a => by
      match a with
      | ⟨0, _⟩ => rfl
      | ⟨1, _⟩ => rfl)

/-- The second dense stage at one entry of the whole array. -/
theorem dense1_apply (A : FVec Ideal S50000x128 .f32) (ιcol : FVec Ideal S50000x1 .f32) (W1 : FVec Ideal S128x128 .f32)
    (b1row : FVec Ideal S1x128 .f32) (r : Fin 50000) (q : Fin 128) :
    Cert.Gcn.dense1 (F := Ideal) A ιcol W1 b1row (ix2 r q)
      = (∑ k : Fin 128, (A (ix2 r k) * ιcol (ix2 r (0 : Fin 1))) * W1 (ix2 k q)) + b1row (ix2 (0 : Fin 1) q) := by
  unfold Cert.Gcn.dense1 Cert.Gcn.scale128
  refine (addf_apply _ _ _).trans ?_
  congr 1
  · refine (Cert.LibPlainDot.dotGeneral_plain_apply 50000 128 128 none _ _ _ r q).trans ?_
    refine Finset.sum_congr rfl fun k _ => ?_
    congr 1
    refine (mulf_apply _ _ _).trans ?_
    congr 1
    exact broadcastInDim_apply _ _ ιcol (ix2 r k) (ix2 r (0 : Fin 1)) (fun a => by
      match a with
      | ⟨0, _⟩ => rfl
      | ⟨1, _⟩ => rfl)
  · exact broadcastInDim_apply _ _ b1row (ix2 r q) (ix2 (0 : Fin 1) q) (fun a => by
      match a with
      | ⟨0, _⟩ => rfl
      | ⟨1, _⟩ => rfl)

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the row blocks of A, of the ι column and of the output move together,
    every other block index is zero, and the row block index is the point's number. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks is some point's. -/
theorem index_onto : ∀ (b : Fin 10), ∃ t : Fin cfg1.N, win1_4.index t = ![b.val, 0] :=
  (by decide +kernel : ∀ (b : Fin 10), ∃ t : Fin grid1.N, win1_4.index t = ![b.val, 0])

/-- The block of A at a point, read at (p, k), is A at the point's row. -/
theorem blockA (c : Dev nD) (t : Fin cfg1.N) (p : Fin 5000) (k : Fin 128) (r : Fin 50000)
    (hr : r.val = win1_4.index t (0 : Fin 2) * 5000 + p.val) :
    iblk1 V c 0 t (ix2 p k) = V c main_v44 (ix2 r k) := by
  obtain ⟨e0, e1, -⟩ := index_facts t
  show V c main_v44 (((cfg1.win 0).blk t).view.emb (ix2 p k)) = V c main_v44 (ix2 r k)
  refine congrArg (V c main_v44) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The block of the ι column at a point, read at (p, 0), is the column at the point's row. -/
theorem blockI (c : Dev nD) (t : Fin cfg1.N) (p : Fin 5000) (r : Fin 50000)
    (hr : r.val = win1_4.index t (0 : Fin 2) * 5000 + p.val) :
    iblk1 V c 1 t (ix2 p (0 : Fin 1)) = V c main_v18 (ix2 r (0 : Fin 1)) := by
  obtain ⟨-, -, e2, e3, -⟩ := index_facts t
  show V c main_v18 (((cfg1.win 1).blk t).view.emb (ix2 p (0 : Fin 1))) = V c main_v18 (ix2 r (0 : Fin 1))
  refine congrArg (V c main_v18) (funext fun a => Fin.ext ?_)
  match a with
  | ⟨0, _⟩ => show win1_1.index t (0 : Fin 2) * 5000 + 1 * p.val = r.val; omega
  | ⟨1, _⟩ => show win1_1.index t (1 : Fin 2) * 1 + 1 * (0 : Fin 1).val = (0 : Fin 1).val; simp only [Fin.val_zero]; omega

/-- The block of W1 at every point is W1. -/
theorem blockW (c : Dev nD) (t : Fin cfg1.N) (k : Fin 128) (q : Fin 128) :
    iblk1 V c 2 t (ix2 k q) = V c main_arg7 (ix2 k q) := by
  obtain ⟨-, -, -, -, e4, e5, -⟩ := index_facts t
  show V c main_arg7 (((cfg1.win 2).blk t).view.emb (ix2 k q)) = V c main_arg7 (ix2 k q)
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The block of the bias row at every point is the bias row. -/
theorem blockB (c : Dev nD) (t : Fin cfg1.N) (q : Fin 128) :
    iblk1 V c 3 t (ix2 (0 : Fin 1) q) = V c main_v45 (ix2 (0 : Fin 1) q) := by
  obtain ⟨-, -, -, -, -, -, e6, e7, -⟩ := index_facts t
  show V c main_v45 (((cfg1.win 3).blk t).view.emb (ix2 (0 : Fin 1) q)) = V c main_v45 (ix2 (0 : Fin 1) q)
  refine congrArg (V c main_v45) (funext fun a => Fin.ext ?_)
  match a with
  | ⟨0, _⟩ => show win1_3.index t (0 : Fin 2) * 1 + 1 * (0 : Fin 1).val = (0 : Fin 1).val; simp only [Fin.val_zero]; omega
  | ⟨1, _⟩ => show win1_3.index t (1 : Fin 2) * 128 + 1 * q.val = q.val; omega

/-- What point `t` writes back is block `t` of the second dense stage of the arrays as entered. -/
theorem flushed_eq (c : Dev nD) (t : Fin cfg1.N) :
    (dat1 (F := Ideal) V c).flushed 4 t = ((cfg1.win 4).blk t).view.read (Elt Ideal)
      (Cert.Gcn.dense1 (F := Ideal) (V c main_v44) (V c main_v18) (V c main_arg7) (V c main_v45)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨-, -, -, -, -, -, -, -, e8, e9⟩ := index_facts t
  funext j
  have hp : (j 0).val < 5000 := (j 0).isLt
  have hq : (j 1).val < 128 := (j 1).isLt
  have hL : (cfg1.win 4).xinj (grid1.coords t) j = ix2 (⟨(j 0).val, hp⟩ : Fin 5000) (⟨(j 1).val, hq⟩ : Fin 128) :=
    funext fun a => Fin.ext (by match a with | ⟨0, _⟩ => rfl | ⟨1, _⟩ => rfl)
  have hR : ((cfg1.win 4).blk t).view.emb j
      = ix2 (⟨win1_4.index t (0 : Fin 2) * 5000 + (j 0).val, by omega⟩ : Fin 50000) (⟨(j 1).val, hq⟩ : Fin 128) := by
    refine funext fun a => Fin.ext ?_
    match a with
    | ⟨0, _⟩ => show win1_4.index t (0 : Fin 2) * 5000 + 1 * (j 0).val = win1_4.index t (0 : Fin 2) * 5000 + (j 0).val; omega
    | ⟨1, _⟩ => show win1_4.index t (1 : Fin 2) * 128 + 1 * (j 1).val = (j 1).val; omega
  show k1_pay1 (F := Ideal) (iblk1 V c 0 t) (iblk1 V c 1 t) (iblk1 V c 2 t) (iblk1 V c 3 t) ((cfg1.win 4).xinj (grid1.coords t) j)
    = Cert.Gcn.dense1 (F := Ideal) (V c main_v44) (V c main_v18) (V c main_arg7) (V c main_v45) (((cfg1.win 4).blk t).view.emb j)
  refine (congrArg (k1_pay1 (F := Ideal) (iblk1 V c 0 t) (iblk1 V c 1 t) (iblk1 V c 2 t) (iblk1 V c 3 t)) hL).trans ?_
  refine Eq.trans ?_ (congrArg (Cert.Gcn.dense1 (F := Ideal) (V c main_v44) (V c main_v18) (V c main_arg7) (V c main_v45)) hR).symm
  refine (pay_apply (iblk1 V c 0 t) (iblk1 V c 1 t) (iblk1 V c 2 t) (iblk1 V c 3 t) ⟨(j 0).val, hp⟩ ⟨(j 1).val, hq⟩).trans ?_
  refine Eq.trans ?_ (dense1_apply (V c main_v44) (V c main_v18) (V c main_arg7) (V c main_v45)
    ⟨win1_4.index t (0 : Fin 2) * 5000 + (j 0).val, by omega⟩ ⟨(j 1).val, hq⟩).symm
  rw [blockB V c t ⟨(j 1).val, hq⟩, blockI V c t ⟨(j 0).val, hp⟩ ⟨win1_4.index t (0 : Fin 2) * 5000 + (j 0).val, by omega⟩ rfl]
  congr 1
  refine Finset.sum_congr rfl fun k _ => ?_
  rw [blockA V c t ⟨(j 0).val, hp⟩ k ⟨win1_4.index t (0 : Fin 2) * 5000 + (j 0).val, by omega⟩ rfl, blockW V c t k ⟨(j 1).val, hq⟩]

/-- An index of the output array is in point `t`'s block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v46).slice (win1_4.rect t)).set ↔ _
  rw [View.set_slice_whole, Rect.mem_set_unit]
  exact Iff.rfl

/-- Every row of the output lies in the block of the point numbered by the row's quotient by 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

end Blocks

/-- After the ten grid points, the second kernel's output array is `dense1` of its four input arrays as entered. -/
theorem arr (V : (c : Dev nD) → (b : Ref sig .tc) → Buf (Elt Ideal) ((c : Thread nD τ).loc b)) (c : Dev nD) :
    ((dat1 (F := Ideal) V c).arrAt 4 cfg1.N : S50000x128.Idx → EReal)
      = Cert.Gcn.dense1 (F := Ideal) (V c main_v44) (V c main_v18) (V c main_arg7) (V c main_v45) :=
  (dat1 (F := Ideal) V c).arrAt_eq_of_cover 4
    (Cert.Gcn.dense1 (F := Ideal) (V c main_v44) (V c main_v18) (V c main_arg7) (V c main_v45))
    (fun t _ => flushed_eq V c t) cover

end Cert.Gcn.Region1

end
-- ==== Proof.KerFold.lean ====
/-
  The kernel program's result array as a value, on extended reals. At the first kernel's entry the host stretches have
  left the degree columns, the aggregated scaled features, the first weight matrix and the bias row; the first kernel
  leaves the first dense stage of those in its output array and touches nothing else; the stretch between the kernels
  aggregates that output over the edges (through the 16-bit float format and back: the identity here) and lays the second
  bias out as a row; the second kernel leaves the second dense stage. Composed, the result array is the network `net` of
  the argument arrays, with the embedding rows made by the one-hot product and the bias rows by reshapes.
-/
import proofs.«430867_j90091234000961_2_alg».proof.Proof.KerStretch
import proofs.«430867_j90091234000961_2_alg».proof.Proof.Region0
import proofs.«430867_j90091234000961_2_alg».proof.Proof.Region1
import Idealize.ShloMosaic.PureOps.Ideal

set_option maxRecDepth 16384

noncomputable section

namespace Cert.Gcn.KerFold

open Idealize.ShloMosaic Idealize.ShloMosaic.TcCoe Idealize.SL.Sem Idealize.ShloMosaic.StableHlo
open Cert.KernelIdeal Cert.KernelIdeal.Gen Cert.Gcn.KerStretch

variable (m : (ℓ : Loc nD τ sig) → Buf (Elt Ideal) ℓ) (ρ : Dev nD → PrngReg)

/-! ## After the first kernel -/

/-- The first kernel's output array: the first dense stage of what the host stretches left. -/
theorem out0 (c : Dev nD) : (V8 m ρ c main_v32 : FVec Ideal S50000x128 .f32)
    = Cert.Gcn.dense0 (F := Ideal)
        (Cert.Gcn.agg3 (F := Ideal)
          (Cert.Gcn.scale3 (F := Ideal)
            (Cert.Gcn.feats (F := Ideal) (m ((c : Thread nD τ).loc main_arg2))
              (Cert.Gcn.embedOneHot (F := Ideal) (m ((c : Thread nD τ).loc main_arg4)) (m ((c : Thread nD τ).loc main_arg3))))
            (Cert.Gcn.nodeCol (F := Ideal) (Cert.Gcn.degInvSqrt (F := Ideal) (m ((c : Thread nD τ).loc main_arg0)))))
          (m ((c : Thread nD τ).loc main_arg0)) (m ((c : Thread nD τ).loc main_arg1)))
        (Cert.Gcn.nodeCol (F := Ideal) (Cert.Gcn.degInvSqrt (F := Ideal) (m ((c : Thread nD τ).loc main_arg1))))
        (Cert.Gcn.nodeCol (F := Ideal) (Cert.Gcn.degInvSqrt (F := Ideal) (m ((c : Thread nD τ).loc main_arg0))))
        (m ((c : Thread nD τ).loc main_arg5)) (Cert.Gcn.biasReshape (F := Ideal) (m ((c : Thread nD τ).loc main_arg6))) := by
  have h := Cert.Gcn.Region0.arr (V7 m ρ) c
  rw [entry0_agg (F := Ideal) m ρ c, entry0_icol (F := Ideal) m ρ c, entry0_ocol (F := Ideal) m ρ c,
    entry0_W (F := Ideal) m ρ c, entry0_brow (F := Ideal) m ρ c] at h
  exact (W8_arr m ρ c 5).trans h

/-- A buffer the first kernel does not write keeps its entry contents. -/
theorem kept0 (c : Dev nD) (b : Ref sig .tc) (hb : ∀ w, Pipeline.arrRef spec0 w ≠ b) : V8 m ρ c b = V7 m ρ c b :=
  W8_of_ne m ρ c b hb

/-! ## At the second kernel's entry -/

/-- The aggregated first-stage output. -/
theorem entry1_agg (c : Dev nD) : (V9 m ρ c main_v44 : FVec Ideal S50000x128 .f32)
    = Cert.Gcn.agg128 (F := Ideal) (V8 m ρ c main_v32) (m ((c : Thread nD τ).loc main_arg0)) (m ((c : Thread nD τ).loc main_arg1)) := by
  have h := between_agg (F := Ideal) (W8 m ρ c)
  rw [Cert.Gcn.agg128Narrow_eq] at h
  have e0 : W8 m ρ c (Proc.devRef .tc main_arg0) = m ((c : Thread nD τ).loc main_arg0) :=
    (kept0 m ρ c main_arg0 (by decide)).trans (entry0_src (F := Ideal) m ρ c)
  have e1 : W8 m ρ c (Proc.devRef .tc main_arg1) = m ((c : Thread nD τ).loc main_arg1) :=
    (kept0 m ρ c main_arg1 (by decide)).trans (entry0_dst (F := Ideal) m ρ c)
  rw [e0, e1] at h
  exact h

/-- The in-degree column, unchanged since the first kernel's entry: the first kernel only reads it (an input window's array
    ends as it was), and the stretch between the kernels does not write it. -/
theorem entry1_icol (c : Dev nD) : (V9 m ρ c main_v18 : FVec Ideal S50000x1 .f32)
    = Cert.Gcn.nodeCol (F := Ideal) (Cert.Gcn.degInvSqrt (F := Ideal) (m ((c : Thread nD τ).loc main_arg1))) :=
  (between_icol (F := Ideal) (W8 m ρ c)).trans
    (((W8_arr m ρ c 1).trans (((dat0 (V7 m ρ) c).arrAt_in 1 rfl _).trans (A_eq0 (V7 m ρ) c 1))).trans
      (entry0_icol (F := Ideal) m ρ c))

/-- The second weight matrix is the argument. -/
theorem entry1_W (c : Dev nD) : (V9 m ρ c main_arg7 : FVec Ideal S128x128 .f32) = m ((c : Thread nD τ).loc main_arg7) :=
  (between_W1 (F := Ideal) (W8 m ρ c)).trans ((kept0 m ρ c main_arg7 (by decide)).trans (entry0_W1 (F := Ideal) m ρ c))

/-- The second bias as a row. -/
theorem entry1_brow (c : Dev nD) : (V9 m ρ c main_v45 : FVec Ideal S1x128 .f32)
    = Cert.Gcn.biasReshape (F := Ideal) (m ((c : Thread nD τ).loc main_arg8)) := by
  have h := between_brow (F := Ideal) (W8 m ρ c)
  have e : W8 m ρ c (Proc.devRef .tc main_arg8) = m ((c : Thread nD τ).loc main_arg8) :=
    (kept0 m ρ c main_arg8 (by decide)).trans (entry0_b1 (F := Ideal) m ρ c)
  rw [e] at h
  exact h

/-! ## The result -/

/-- The result array after the second kernel is the network of the argument arrays. -/
theorem result (c : Dev nD) : (W10 m ρ c (Proc.devRef .tc main_v46) : FVec Ideal S50000x128 .f32)
    = Cert.Gcn.net (F := Ideal) (m ((c : Thread nD τ).loc main_arg0)) (m ((c : Thread nD τ).loc main_arg1))
        (m ((c : Thread nD τ).loc main_arg2))
        (Cert.Gcn.embedOneHot (F := Ideal) (m ((c : Thread nD τ).loc main_arg4)) (m ((c : Thread nD τ).loc main_arg3)))
        (m ((c : Thread nD τ).loc main_arg5)) (Cert.Gcn.biasReshape (F := Ideal) (m ((c : Thread nD τ).loc main_arg6)))
        (m ((c : Thread nD τ).loc main_arg7)) (Cert.Gcn.biasReshape (F := Ideal) (m ((c : Thread nD τ).loc main_arg8))) := by
  have h := Cert.Gcn.Region1.arr (V9 m ρ) c
  rw [entry1_agg m ρ c, entry1_icol m ρ c, entry1_W m ρ c, entry1_brow m ρ c, out0 m ρ c] at h
  unfold Cert.Gcn.net
  exact (W10_arr m ρ c 4).trans h

end Cert.Gcn.KerFold

end
-- ==== Proof.RefRun.lean ====
/-
  The reference program's run read back: its hundred host operations, the called functions' inlined at their calls, end
  with the result buffer at the network `net` of the argument arrays — the embedding rows gathered from the table, the
  bias vectors broadcast to rows — and the arguments unchanged.
-/
import proofs.«430867_j90091234000961_2_alg».proof.Proof.Gen.ReferenceIdeal
import proofs.«430867_j90091234000961_2_alg».proof.Proof.Spec
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-! ## The program as five stretches of operations

The hundred statements of @main with the called functions' operations written at their calls (a call of `clip` is
its convert, its broadcast and its maximum over that call's buffers; the call of `leaky_relu` its six operations and
the select of the `_where` it calls), 113 operations in all, cut where the network's stages end. -/

/-- Statements 1 … 11: the embedding rows gathered at the wrapped `significance`, the weight column, their
    concatenation. -/
abbrev opsFeat : List (HloOp τ sig (Elt F)) :=
  [ nullary main_c (constantI S_ 32 0#32),
    unary main_c main_v0 (broadcastInDim S50000 ![] bcast_S_S50000),
    binary main_arg3 main_v0 main_v1 (cmpi .slt),
    nullary main_c_0 (constantI S_ 32 2#32),
    unary main_c_0 main_v2 (broadcastInDim S50000 ![] bcast_S_S50000),
    binary main_arg3 main_v2 main_v3 addi,
    ternary main_v1 main_v3 main_arg3 main_v4 select,
    unary main_v4 main_v5 (broadcastInDim S50000x1 ![0] bcast_S50000_S50000x1_0),
    binary main_arg4 main_v5 main_v6 (fun x i => Host.gather gather_S2x2_S50000x1_S50000x2_1_0_n_n_0_1_12 x i),
    unary main_arg2 main_v7 (broadcastInDim S50000x1 ![0] bcast_S50000_S50000x1_0),
    binary main_v7 main_v6 main_v8 (fun a b => concatenate S50000x3 1 [⟨S50000x1, a⟩, ⟨S50000x2, b⟩] concatenates_S50000x1_S50000x2_S50000x3_d1) ]

/-- Statements 12 … 31: the two clamped degrees (each a scatter-add of ones, then `clip`), the source degree to the
    power -1/2 as a column, the features scaled by it. -/
abbrev opsDeg : List (HloOp τ sig (Elt F)) :=
  [ nullary main_cst (constant S_ .f32 0x3F800000#32),
    unary main_cst main_v9 (broadcastInDim S800000 ![] bcast_S_S800000),
    nullary main_cst_1 (constant S_ .f32 0x00000000#32),
    unary main_cst_1 main_v10 (broadcastInDim S50000 ![] bcast_S_S50000),
    unary main_arg0 main_v11 (broadcastInDim S800000x1 ![0] bcast_S800000_S800000x1_0),
    ternary main_v10 main_v11 main_v9 main_v12 (fun x i u => Host.scatterAdd scatter_S50000_S800000x1_S800000_n_0_0_1 x i u),
    nullary main_cst_2 (constant S_ .f32 0x3F800000#32),
    TRef.unary (.of main_cst_2 : TRef sig ⟨S_, .f32⟩) main_call0.v0 id,
    TRef.unary main_call0.v0 main_call0.v1 (broadcastInDim S50000 ![] bcast_S_S50000),
    TRef.binary main_call0.v1 (.of main_v12 : TRef sig ⟨S50000, .f32⟩) main_call0.v2 maximumf,
    nullary main_cst_3 (constant S_ .f32 0x00000000#32),
    unary main_cst_3 main_v14 (broadcastInDim S50000 ![] bcast_S_S50000),
    unary main_arg1 main_v15 (broadcastInDim S800000x1 ![0] bcast_S800000_S800000x1_0),
    ternary main_v14 main_v15 main_v9 main_v16 (fun x i u => Host.scatterAdd scatter_S50000_S800000x1_S800000_n_0_0_1 x i u),
    nullary main_cst_4 (constant S_ .f32 0x3F800000#32),
    TRef.unary (.of main_cst_4 : TRef sig ⟨S_, .f32⟩) main_call1.v0 id,
    TRef.unary main_call1.v0 main_call1.v1 (broadcastInDim S50000 ![] bcast_S_S50000),
    TRef.binary main_call1.v1 (.of main_v16 : TRef sig ⟨S50000, .f32⟩) main_call1.v2 maximumf,
    nullary main_cst_5 (constant S_ .f32 0xBF000000#32),
    unary main_cst_5 main_v18 (broadcastInDim S50000 ![] bcast_S_S50000),
    binary main_v13 main_v18 main_v19 Host.powf,
    unary main_v19 main_v20 (broadcastInDim S50000x1 ![0] bcast_S50000_S50000x1_0),
    unary main_v20 main_v21 (broadcastInDim S50000x3 ![0, 1] bcast_S50000x1_S50000x3_0_1),
    binary main_v8 main_v21 main_v22 mulf ]

/-- Statements 32 … 56: the wrapped source indices, the gather and scatter-add of the scaled features, the scaling by
    the destination degree's power, the first dense layer and its leaky rectifier (`leaky_relu` and the `_where` it
    calls). -/
abbrev opsAct : List (HloOp τ sig (Elt F)) :=
  [ nullary main_c_6 (constantI S_ 32 0#32),
    unary main_c_6 main_v23 (broadcastInDim S800000 ![] bcast_S_S800000),
    binary main_arg0 main_v23 main_v24 (cmpi .slt),
    nullary main_c_7 (constantI S_ 32 50000#32),
    unary main_c_7 main_v25 (broadcastInDim S800000 ![] bcast_S_S800000),
    binary main_arg0 main_v25 main_v26 addi,
    ternary main_v24 main_v26 main_arg0 main_v27 select,
    unary main_v27 main_v28 (broadcastInDim S800000x1 ![0] bcast_S800000_S800000x1_0),
    binary main_v22 main_v28 main_v29 (fun x i => Host.gather gather_S50000x3_S800000x1_S800000x3_1_0_n_n_0_1_13 x i),
    nullary main_cst_8 (constant S_ .f32 0x00000000#32),
    unary main_cst_8 main_v30 (broadcastInDim S50000x3 ![] bcast_S_S50000x3),
    unary main_arg1 main_v31 (broadcastInDim S800000x1 ![0] bcast_S800000_S800000x1_0),
    ternary main_v30 main_v31 main_v29 main_v32 (fun x i u => Host.scatterAdd scatter_S50000x3_S800000x1_S800000x3_1_0_0_1 x i u),
    nullary main_cst_9 (constant S_ .f32 0xBF000000#32),
    unary main_cst_9 main_v33 (broadcastInDim S50000 ![] bcast_S_S50000),
    binary main_v17 main_v33 main_v34 Host.powf,
    unary main_v34 main_v35 (broadcastInDim S50000x1 ![0] bcast_S50000_S50000x1_0),
    unary main_v35 main_v36 (broadcastInDim S50000x3 ![0, 1] bcast_S50000x1_S50000x3_0_1),
    binary main_v32 main_v36 main_v37 mulf,
    binary main_v37 main_arg5 main_v38 (fun l r => Host.dotGeneral dot_S50000x3_S3x128_S50000x128_1_0_0_1_n_n none l r),
    unary main_arg6 main_v39 (broadcastInDim S1x128 ![1] bcast_S128_S1x128_1),
    unary main_v39 main_v40 (broadcastInDim S50000x128 ![0, 1] bcast_S1x128_S50000x128_0_1),
    binary main_v38 main_v40 main_v41 addf,
    nullary main_cst_10 (constant S_ .f32 0x3C23D70A#32),
    TRef.nullary main_call2.cst (constant S_ .f32 0x00000000#32),
    TRef.unary main_call2.cst main_call2.v0 (broadcastInDim S50000x128 ![] bcast_S_S50000x128),
    TRef.binary (.of main_v41 : TRef sig ⟨S50000x128, .f32⟩) main_call2.v0 main_call2.v1 (cmpf .oge),
    TRef.unary (.of main_cst_10 : TRef sig ⟨S_, .f32⟩) main_call2.v2 id,
    TRef.unary main_call2.v2 main_call2.v3 (broadcastInDim S50000x128 ![] bcast_S_S50000x128),
    TRef.binary main_call2.v3 (.of main_v41 : TRef sig ⟨S50000x128, .f32⟩) main_call2.v4 mulf,
    TRef.ternary main_call2.v1 (.of main_v41 : TRef sig ⟨S50000x128, .f32⟩) main_call2.v4 main_call2.call0.v0 select ]

/-- Statements 57 … 76: the two clamped degrees once more (the program computes them again for the second layer), the
    source degree's power as a column, the activations scaled by it. -/
abbrev opsHid : List (HloOp τ sig (Elt F)) :=
  [ nullary main_cst_11 (constant S_ .f32 0x3F800000#32),
    unary main_cst_11 main_v43 (broadcastInDim S800000 ![] bcast_S_S800000),
    nullary main_cst_12 (constant S_ .f32 0x00000000#32),
    unary main_cst_12 main_v44 (broadcastInDim S50000 ![] bcast_S_S50000),
    unary main_arg0 main_v45 (broadcastInDim S800000x1 ![0] bcast_S800000_S800000x1_0),
    ternary main_v44 main_v45 main_v43 main_v46 (fun x i u => Host.scatterAdd scatter_S50000_S800000x1_S800000_n_0_0_1 x i u),
    nullary main_cst_13 (constant S_ .f32 0x3F800000#32),
    TRef.unary (.of main_cst_13 : TRef sig ⟨S_, .f32⟩) main_call3.v0 id,
    TRef.unary main_call3.v0 main_call3.v1 (broadcastInDim S50000 ![] bcast_S_S50000),
    TRef.binary main_call3.v1 (.of main_v46 : TRef sig ⟨S50000, .f32⟩) main_call3.v2 maximumf,
    nullary main_cst_14 (constant S_ .f32 0x00000000#32),
    unary main_cst_14 main_v48 (broadcastInDim S50000 ![] bcast_S_S50000),
    unary main_arg1 main_v49 (broadcastInDim S800000x1 ![0] bcast_S800000_S800000x1_0),
    ternary main_v48 main_v49 main_v43 main_v50 (fun x i u => Host.scatterAdd scatter_S50000_S800000x1_S800000_n_0_0_1 x i u),
    nullary main_cst_15 (constant S_ .f32 0x3F800000#32),
    TRef.unary (.of main_cst_15 : TRef sig ⟨S_, .f32⟩) main_call4.v0 id,
    TRef.unary main_call4.v0 main_call4.v1 (broadcastInDim S50000 ![] bcast_S_S50000),
    TRef.binary main_call4.v1 (.of main_v50 : TRef sig ⟨S50000, .f32⟩) main_call4.v2 maximumf,
    nullary main_cst_16 (constant S_ .f32 0xBF000000#32),
    unary main_cst_16 main_v52 (broadcastInDim S50000 ![] bcast_S_S50000),
    binary main_v47 main_v52 main_v53 Host.powf,
    unary main_v53 main_v54 (broadcastInDim S50000x1 ![0] bcast_S50000_S50000x1_0),
    unary main_v54 main_v55 (broadcastInDim S50000x128 ![0, 1] bcast_S50000x1_S50000x128_0_1),
    binary main_v42 main_v55 main_v56 mulf ]

/-- Statements 77 … 99: the wrapped source indices, the gather and scatter-add of the scaled activations, the scaling
    by the destination degree's power, the second dense layer. -/
abbrev opsOut : List (HloOp τ sig (Elt F)) :=
  [ nullary main_c_17 (constantI S_ 32 0#32),
    unary main_c_17 main_v57 (broadcastInDim S800000 ![] bcast_S_S800000),
    binary main_arg0 main_v57 main_v58 (cmpi .slt),
    nullary main_c_18 (constantI S_ 32 50000#32),
    unary main_c_18 main_v59 (broadcastInDim S800000 ![] bcast_S_S800000),
    binary main_arg0 main_v59 main_v60 addi,
    ternary main_v58 main_v60 main_arg0 main_v61 select,
    unary main_v61 main_v62 (broadcastInDim S800000x1 ![0] bcast_S800000_S800000x1_0),
    binary main_v56 main_v62 main_v63 (fun x i => Host.gather gather_S50000x128_S800000x1_S800000x128_1_0_n_n_0_1_1128 x i),
    nullary main_cst_19 (constant S_ .f32 0x00000000#32),
    unary main_cst_19 main_v64 (broadcastInDim S50000x128 ![] bcast_S_S50000x128),
    unary main_arg1 main_v65 (broadcastInDim S800000x1 ![0] bcast_S800000_S800000x1_0),
    ternary main_v64 main_v65 main_v63 main_v66 (fun x i u => Host.scatterAdd scatter_S50000x128_S800000x1_S800000x128_1_0_0_1 x i u),
    nullary main_cst_20 (constant S_ .f32 0xBF000000#32),
    unary main_cst_20 main_v67 (broadcastInDim S50000 ![] bcast_S_S50000),
    binary main_v51 main_v67 main_v68 Host.powf,
    unary main_v68 main_v69 (broadcastInDim S50000x1 ![0] bcast_S50000_S50000x1_0),
    unary main_v69 main_v70 (broadcastInDim S50000x128 ![0, 1] bcast_S50000x1_S50000x128_0_1),
    binary main_v66 main_v70 main_v71 mulf,
    binary main_v71 main_arg7 main_v72 (fun l r => Host.dotGeneral dot_S50000x128_S128x128_S50000x128_1_0_0_1_n_n none l r),
    unary main_arg8 main_v73 (broadcastInDim S1x128 ![1] bcast_S128_S1x128_1),
    unary main_v73 main_v74 (broadcastInDim S50000x128 ![0, 1] bcast_S1x128_S50000x128_0_1),
    binary main_v72 main_v74 main_v75 addf ]

/-- @main's 113 operations, in order. -/
abbrev ops : List (HloOp τ sig (Elt F)) := opsFeat ++ (opsDeg ++ (opsAct ++ (opsHid ++ opsOut)))

/-! ## @main is that line -/

-- 113 binds re-associated: the rewriting under the chain recurses once per statement
set_option maxRecDepth 8192 in
set_option maxHeartbeats 4000000 in
/-- @main is the straight line of the five stretches: the two windows run in order, the called functions' bodies
    unfolded at their calls and the records at their fields, the sequencing reassociated. -/
theorem main_eq (c : Dev nD) : main (F := F) c = seq ops := by
  simp only [main, main_part0, main_part1, fn_clip.body, fn_leaky_relu.body, fn_where.body, ops, seq_append, seq,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append, List.Forall, nullary_bufs_sub, unary_bufs_sub, binary_bufs_sub, ternary_bufs_sub,
    and_self]

/-- Every operation determines its results. -/
theorem ops_fresh : ∀ op ∈ (ops : List (HloOp τ sig (Elt F))), op.fresh = ∅ :=
  List.forall_iff_forall_mem.mp (by
    simp only [ops, List.forall_append, List.Forall]
    repeat' apply And.intro
    all_goals rfl)

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch leaves, as the network's stages

Each stretch's result buffer after the stretch, from any contents `W`: the stage of the network the stretch computes, of
`W` at the buffers the stretch reads. The scatter-adds, gathers, powers and the concatenation stay folded (a contraction is the float instance's own):
the equations never look inside them. -/

attribute [local irreducible] Host.scatterAdd Host.gather Host.powf concatenate

/-- After the first stretch: the features, the weight column beside the gathered embedding rows. -/
theorem feat_eq (W : Valuation τ sig (Elt F)) :
    after opsFeat W (main_v8 : DevRef τ sig)
      = feats (W (main_arg2 : DevRef τ sig))
          (embedGather (W (main_arg4 : DevRef τ sig)) (W (main_arg3 : DevRef τ sig))) := by
  after_results
  rfl

/-- After the second stretch: the features scaled by the source degree's power. -/
theorem deg_scaled (W : Valuation τ sig (Elt F)) :
    after opsDeg W (main_v22 : DevRef τ sig)
      = scale3 (W (main_v8 : DevRef τ sig)) (nodeCol (degInvSqrt (W (main_arg0 : DevRef τ sig)))) := by
  after_results_simp
  rfl

/-- After the second stretch: the destination ends' clamped degree. -/
theorem deg_dst (W : Valuation τ sig (Elt F)) :
    after opsDeg W (main_v17 : DevRef τ sig) = degClamped (W (main_arg1 : DevRef τ sig)) := by
  after_results_simp
  rfl

/-- After the third stretch: the first layer's activations before their scaling. -/
theorem act_eq (W : Valuation τ sig (Elt F)) :
    after opsAct W (main_v42 : DevRef τ sig)
      = leaky (addf (Host.dotGeneral dot_S50000x3_S3x128_S50000x128_1_0_0_1_n_n none
            (scale3 (agg3 (W (main_v22 : DevRef τ sig)) (W (main_arg0 : DevRef τ sig)) (W (main_arg1 : DevRef τ sig)))
              (nodeCol (Host.powf (W (main_v17 : DevRef τ sig))
                (broadcastInDim S50000 ![] bcast_S_S50000 (constant S_ .f32 0xBF000000#32)))))
            (W (main_arg5 : DevRef τ sig)))
          (broadcastInDim S50000x128 ![0, 1] bcast_S1x128_S50000x128_0_1 (biasRow (W (main_arg6 : DevRef τ sig))))) := by
  after_results_simp
  rfl

/-- After the fourth stretch: the activations scaled by the source degree's power. -/
theorem hid_eq (W : Valuation τ sig (Elt F)) :
    after opsHid W (main_v56 : DevRef τ sig)
      = scale128 (W (main_v42 : DevRef τ sig)) (nodeCol (degInvSqrt (W (main_arg0 : DevRef τ sig)))) := by
  after_results_simp
  rfl

/-- After the fourth stretch: the destination ends' clamped degree, computed again. -/
theorem hid_dst (W : Valuation τ sig (Elt F)) :
    after opsHid W (main_v51 : DevRef τ sig) = degClamped (W (main_arg1 : DevRef τ sig)) := by
  after_results_simp
  rfl

/-- After the last stretch: the second dense stage of the aggregated activations. -/
theorem out_eq (W : Valuation τ sig (Elt F)) :
    after opsOut W (main_v75 : DevRef τ sig)
      = dense1 (agg128 (W (main_v56 : DevRef τ sig)) (W (main_arg0 : DevRef τ sig)) (W (main_arg1 : DevRef τ sig)))
          (nodeCol (Host.powf (W (main_v51 : DevRef τ sig))
            (broadcastInDim S50000 ![] bcast_S_S50000 (constant S_ .f32 0xBF000000#32))))
          (W (main_arg7 : DevRef τ sig)) (biasRow (W (main_arg8 : DevRef τ sig))) := by
  after_results_simp
  rfl

/-! ## The whole line -/

/-- The result buffer after the whole line: the network of the arguments. The stretches' stages composed; an argument
    read after earlier stretches is the argument as launched, no operation writing one. -/
theorem value (V : Valuation τ sig (Elt F)) :
    after ops V (main_v75 : DevRef τ sig)
      = net (V (main_arg0 : DevRef τ sig)) (V (main_arg1 : DevRef τ sig)) (V (main_arg2 : DevRef τ sig))
          (embedGather (V (main_arg4 : DevRef τ sig)) (V (main_arg3 : DevRef τ sig))) (V (main_arg5 : DevRef τ sig))
          (biasRow (V (main_arg6 : DevRef τ sig))) (V (main_arg7 : DevRef τ sig))
          (biasRow (V (main_arg8 : DevRef τ sig))) := by
  rw [after_app, after_app, after_app, after_app, out_eq, hid_eq, hid_dst, act_eq, deg_scaled, deg_dst, feat_eq]
  after_results_simp
  simp only [net, dense0, degInvSqrt]

/-- An argument's buffer after the whole line: as it was, no operation writing it. -/
macro "arg_kept" : tactic =>
  `(tactic| (rw [after_app, after_app, after_app, after_app]; after_results_simp))

theorem arg0_kept (V : Valuation τ sig (Elt F)) : after ops V (main_arg0 : DevRef τ sig) = V (main_arg0 : DevRef τ sig) := by
  arg_kept
theorem arg1_kept (V : Valuation τ sig (Elt F)) : after ops V (main_arg1 : DevRef τ sig) = V (main_arg1 : DevRef τ sig) := by
  arg_kept
theorem arg2_kept (V : Valuation τ sig (Elt F)) : after ops V (main_arg2 : DevRef τ sig) = V (main_arg2 : DevRef τ sig) := by
  arg_kept
theorem arg3_kept (V : Valuation τ sig (Elt F)) : after ops V (main_arg3 : DevRef τ sig) = V (main_arg3 : DevRef τ sig) := by
  arg_kept
theorem arg4_kept (V : Valuation τ sig (Elt F)) : after ops V (main_arg4 : DevRef τ sig) = V (main_arg4 : DevRef τ sig) := by
  arg_kept
theorem arg5_kept (V : Valuation τ sig (Elt F)) : after ops V (main_arg5 : DevRef τ sig) = V (main_arg5 : DevRef τ sig) := by
  arg_kept
theorem arg6_kept (V : Valuation τ sig (Elt F)) : after ops V (main_arg6 : DevRef τ sig) = V (main_arg6 : DevRef τ sig) := by
  arg_kept
theorem arg7_kept (V : Valuation τ sig (Elt F)) : after ops V (main_arg7 : DevRef τ sig) = V (main_arg7 : DevRef τ sig) := by
  arg_kept
theorem arg8_kept (V : Valuation τ sig (Elt F)) : after ops V (main_arg8 : DevRef τ sig) = V (main_arg8 : DevRef τ sig) := by
  arg_kept

/-- From any memory with zero counters every weakly fair execution of the reference's @main terminates with its result
    at `net` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = Cert.Gcn.net (F := F) (m ((c.tc : Thread nD τ).loc main_arg0)) (m ((c.tc : Thread nD τ).loc main_arg1))
            (m ((c.tc : Thread nD τ).loc main_arg2))
            (Cert.Gcn.embedGather (F := F) (m ((c.tc : Thread nD τ).loc main_arg4)) (m ((c.tc : Thread nD τ).loc main_arg3)))
            (m ((c.tc : Thread nD τ).loc main_arg5)) (Cert.Gcn.biasRow (F := F) (m ((c.tc : Thread nD τ).loc main_arg6)))
            (m ((c.tc : Thread nD τ).loc main_arg7)) (Cert.Gcn.biasRow (F := F) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v75).trans (value _),
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _), (h c main_arg7).trans (arg7_kept _), (h c main_arg8).trans (arg8_kept _)⟩)
    (run_seq scopedRefs_eq scopedSems_eq defs main (fun _ => ops) main_eq (fun _ => ops_sub) m ρ (fun _ => ops_fresh))

end Cert.Gcn.Ref

end
-- ==== Proof.LibGatherRows.lean ====
/-
  Rows of a table gathered by a column of start indices, read at one entry. For a table of K rows and D columns and
  N start indices kept as an N × 1 column, with the table's row axis collapsed and start-indexed, its column axis the
  result's offset axis, no batching axes and the index vector on axis 1 (what indexing a matrix by a vector of row
  numbers lowers to), entry (n, j) of the result is the table's entry (r, j), where r is start index n read as a signed
  integer and clamped into 0 … K - 1.
-/
import Idealize.ShloMosaic.Lib.ValueIdx

namespace Cert.LibGatherRows

open Idealize.ShloMosaic Idealize.ShloMosaic.ValueIdx

/-- The row gather at entry (n, j): the table at the clamped start index of position n, column j. -/
theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a
  -- no operand axis is a batching axis, so the batching coordinate vanishes on both axes
  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>
    -- the row axis: collapsed (offset coordinate 0, slice size 1) and start-indexed, so the operand index is the
    -- start index of position n clamped to K - 1
    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc
    -- the result's only batch axis is axis 0: a batch axis is not the offset axis 1
    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega
    -- the start index of result entry (n, j) is read at (n, 0): the batch coordinate n on axis 0, component 0 on
    -- the index vector's axis 1
    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the column axis: not start-indexed (start 0) and the one kept axis, read through the result's offset axis 1,
    -- so the operand index is j
    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.Embed.lean ====
/-
  The two ways of making the embedding rows agree where every `significance` is 0 or 1: the one-hot row of node `n` is
  `(1, 0)` or `(0, 1)`, so its product with the table is the table's row `significance n` — the row the gather reads,
  no wrap and no clamp applying inside the range. And a bias vector reshaped to a row is that vector broadcast to a row.
-/
import proofs.«430867_j90091234000961_2_alg».proof.Proof.Gen.KernelIdeal
import proofs.«430867_j90091234000961_2_alg».proof.Proof.Gen.ReferenceIdeal
import proofs.«430867_j90091234000961_2_alg».proof.Proof.Spec
import proofs.«430867_j90091234000961_2_alg».proof.Proof.SpecK
import Idealize.ShloMosaic.PureOps.Ideal.Laws
import Idealize.ShloMosaic.Lib.ValueIdx
import Idealize.ShloMosaic.Lib.ValueLayout
import Idealize.ShloMosaic.Lib.Pipeline.Value
import proofs.«430867_j90091234000961_2_alg».proof.Proof.LibPlainDot
import proofs.«430867_j90091234000961_2_alg».proof.Proof.LibGatherRows

noncomputable section

namespace Cert.Gcn

open Idealize.ShloMosaic Idealize.ShloMosaic.TcCoe Idealize.ShloMosaic.ValueIdx
open scoped BigOperators

/-- A word that is 0 or 1, compared with the word of a table index `k < 2` and converted: 1 where they agree, else 0. -/
private theorem oneHot_word (x : BitVec 32) (hx : x = 0#32 ∨ x = 1#32) (k : Fin 2) :
    (FloatOps.uitofp (F := Ideal) .f32 (IntOp.cmpi .eq x (BitVec.ofNat 32 k.val)) : Ideal .f32)
      = if x.toNat = k.val then 1 else 0 := by
  show ((((IntOp.cmpi .eq x (BitVec.ofNat 32 k.val)).toNat : ℝ) : EReal)) = _
  rcases hx with rfl | rfl <;> fin_cases k <;> simp [IntOp.cmpi]

/-- The wrapped index of a word that is 0 or 1 is the word: it is not negative. -/
private theorem wrap_word (x : BitVec 32) (hx : x = 0#32 ∨ x = 1#32) :
    Scalar.select (IntOp.cmpi .slt x 0#32) (IntOp.addi x 2#32) x = x := by
  rcases hx with rfl | rfl <;> decide

/-- For a word `w` that is 0 or 1, the one-hot combination of the table's two rows is the table's row `w`; the row is
    named by a word `w'` equal to `w`, read signed and clamped into the table. -/
private theorem row_pick (emb : FVec Ideal Cert.ReferenceIdeal.S2x2 .f32) (w w' : BitVec 32) (hw : w = 0#32 ∨ w = 1#32)
    (e : w' = w) (j : Fin 2) (p : min w'.toInt.toNat (2 - 1) < 2) :
    (if w.toNat = ((0 : Fin 2) : ℕ) then (1 : Ideal .f32) else 0) * emb (ix2 (0 : Fin 2) j)
        + (if w.toNat = ((1 : Fin 2) : ℕ) then (1 : Ideal .f32) else 0) * emb (ix2 (1 : Fin 2) j)
      = emb (ix2 (⟨min w'.toInt.toNat (2 - 1), p⟩ : Fin 2) j) := by
  subst e
  rcases hw with rfl | rfl
  · have e0 : (⟨min (0#32 : BitVec 32).toInt.toNat (2 - 1), p⟩ : Fin 2) = 0 :=
      Fin.ext (show min (0#32 : BitVec 32).toInt.toNat (2 - 1) = 0 by decide)
    rw [e0]
    simp
  · have e1 : (⟨min (1#32 : BitVec 32).toInt.toNat (2 - 1), p⟩ : Fin 2) = 1 :=
      Fin.ext (show min (1#32 : BitVec 32).toInt.toNat (2 - 1) = 1 by decide)
    rw [e1]
    simp

/-- Where every entry of `sig` is 0 or 1, the one-hot product with the table is the gather of its rows. -/
theorem embed_eq (emb : FVec Ideal Cert.ReferenceIdeal.S2x2 .f32) (sig : IVec Cert.ReferenceIdeal.S50000 32)
    (h : ∀ n : Cert.ReferenceIdeal.S50000.Idx, sig n = 0#32 ∨ sig n = 1#32) :
    embedOneHot (F := Ideal) emb sig = embedGather (F := Ideal) emb sig := by
  funext i
  obtain ⟨n, j, rfl⟩ : ∃ (n : Fin 50000) (j : Fin 2), i = ix2 n j := ⟨i 0, i 1, eq_ix2 i⟩
  have hn := h (ix1 n)
  -- the product at (n, j) is the sum over the two table rows
  refine (Cert.LibPlainDot.dotGeneral_plain_apply 50000 2 2 none .single _ emb n j).trans ?_
  -- the one-hot factor at (n, k)
  have hA : ∀ k : Fin 2,
      (uitofp (F := Ideal) .f32 (cmpi .eq
        (broadcastInDim Cert.KernelIdeal.S50000x2 ![0, 1] Cert.KernelIdeal.Facts₀.bcast_S50000x1_S50000x2_0_1
          (broadcastInDim Cert.KernelIdeal.S50000x1 ![0] Cert.KernelIdeal.Facts₀.bcast_S50000_S50000x1_0 sig))
        (broadcastInDim Cert.KernelIdeal.S50000x2 ![0, 1] Cert.KernelIdeal.Facts₀.bcast_S1x2_S50000x2_0_1
          (iotaInDim Cert.KernelIdeal.S1x2 32 1)))) (ix2 n k)
        = if (sig (ix1 n)).toNat = k.val then 1 else 0 := by
    intro k
    have e1 : broadcastInDim Cert.KernelIdeal.S50000x2 ![0, 1] Cert.KernelIdeal.Facts₀.bcast_S50000x1_S50000x2_0_1
          (broadcastInDim Cert.KernelIdeal.S50000x1 ![0] Cert.KernelIdeal.Facts₀.bcast_S50000_S50000x1_0 sig) (ix2 n k)
        = sig (ix1 n) := by
      refine (broadcastInDim_apply ![0, 1] _ _ (ix2 n k) (ix2 n (0 : Fin 1)) ?_).trans ?_
      · intro a
        match a with
        | ⟨0, _⟩ => rfl
        | ⟨1, _⟩ => rfl
      · refine broadcastInDim_apply ![0] _ sig (ix2 n (0 : Fin 1)) (ix1 n) ?_
        intro a
        match a with
        | ⟨0, _⟩ => rfl
    have e2 : broadcastInDim Cert.KernelIdeal.S50000x2 ![0, 1] Cert.KernelIdeal.Facts₀.bcast_S1x2_S50000x2_0_1
          (iotaInDim Cert.KernelIdeal.S1x2 32 1) (ix2 n k) = BitVec.ofNat 32 k.val := by
      refine (broadcastInDim_apply ![0, 1] _ _ (ix2 n k) (ix2 (0 : Fin 1) k) ?_).trans ?_
      · intro a
        match a with
        | ⟨0, _⟩ => rfl
        | ⟨1, _⟩ => rfl
      · rfl
    show FloatOps.uitofp (F := Ideal) .f32 (IntOp.cmpi .eq _ _) = _
    rw [e1, e2]
    exact oneHot_word _ hn k
  rw [Fin.sum_univ_two, hA 0, hA 1]
  -- the gathered row
  refine Eq.trans ?_ (Cert.LibGatherRows.gather_rows_apply
    Cert.ReferenceIdeal.gather_S2x2_S50000x1_S50000x2_1_0_n_n_0_1_12 rfl rfl rfl rfl rfl (by decide) emb _ n j).symm
  have e3 : broadcastInDim Cert.ReferenceIdeal.S50000x1 ![0] Cert.ReferenceIdeal.Facts₀.bcast_S50000_S50000x1_0
      (select
        (cmpi .slt sig (broadcastInDim Cert.ReferenceIdeal.S50000 ![] Cert.ReferenceIdeal.Facts₀.bcast_S_S50000
          (constantI Cert.ReferenceIdeal.S_ 32 0#32)))
        (addi sig (broadcastInDim Cert.ReferenceIdeal.S50000 ![] Cert.ReferenceIdeal.Facts₀.bcast_S_S50000
          (constantI Cert.ReferenceIdeal.S_ 32 2#32))) sig)
      (ix2 n (0 : Fin 1)) = sig (ix1 n) := by
    refine (broadcastInDim_apply ![0] _ _ (ix2 n (0 : Fin 1)) (ix1 n) ?_).trans ?_
    · intro a
      match a with
      | ⟨0, _⟩ => rfl
    · exact wrap_word _ hn
  exact row_pick emb _ _ hn e3 j _

/-- A bias vector reshaped to a `1 × 128` row is the vector broadcast along the row. -/
theorem biasReshape_eq {F : FTy → Type} [FloatOps F] (b : FVec F Cert.ReferenceIdeal.S128 .f32) :
    biasReshape (F := F) b = biasRow (F := F) b := by
  funext i
  obtain ⟨u, j, rfl⟩ : ∃ (u : Fin 1) (j : Fin 128), i = ix2 u j := ⟨i 0, i 1, eq_ix2 i⟩
  unfold biasReshape biasRow
  rw [shapeCast_a_1a_apply]
  refine (broadcastInDim_apply ![1] _ b (ix2 u j) (ix1 j) ?_).symm
  intro a
  match a with
  | ⟨0, _⟩ => rfl

end Cert.Gcn

end
-- ==== Proof.PreRange.lean ====
/-
  What the precondition says of `significance`: its last conjunct is the conjunction over all 50000 nodes of
  `0 ≤ significance n` and `significance n < 2` as signed 32-bit integers, so every entry is the word 0 or the word 1.
-/
import proofs.«430867_j90091234000961_2_alg».proof.Pre_finite_inputs
import proofs.«430867_j90091234000961_2_alg».proof.Proof.Gen.Pre_finite_inputs
import Idealize.ShloMosaic.PureOps.Ideal
import Idealize.ShloMosaic.Lib.ReduceAll
import Idealize.ShloMosaic.Lib.StableHlo.Predicate

noncomputable section

namespace Cert.Gcn

open Idealize.ShloMosaic Idealize.ShloMosaic.TcCoe
open Cert.Pre_finite_inputs

/-- Under the precondition every entry of the fourth argument (`significance`) is 0 or 1. -/
theorem sig_range {F : FTy → Type} [FloatOps F] (a0 : IVec S800000 32) (a1 : IVec S800000 32) (a2 : FVec F S50000 .f32) (a3 : IVec S50000 32)
    (a4 : FVec F S2x2 .f32) (a5 : FVec F S3x128 .f32) (a6 : FVec F S128 .f32) (a7 : FVec F S128x128 .f32)
    (a8 : FVec F S128 .f32)
    (h : Cert.Pre_finite_inputs.fn (F := F) a0 a1 a2 a3 a4 a5 a6 a7 a8 = fun _ => 1#1) :
    ∀ n : S50000.Idx, a3 n = 0#32 ∨ a3 n = 1#32 := by
  intro n
  -- the conjunction at the scalar result's one index: the last conjunct is the conjunction over all nodes
  have h0 := congrFun h (fun a => a.elim0)
  dsimp only [Cert.Pre_finite_inputs.fn, fn_part1, fn_part2] at h0
  obtain ⟨-, hall⟩ := IntOp.andi_eq_one.1 h0
  haveI : Subsingleton S_.Idx := ⟨fun a b => funext fun d => d.elim0⟩
  -- so at node `n` both compares hold
  have hn := Host.reduce_andi_all _ _ _ _ _ hall n
  obtain ⟨hge, hlt⟩ := IntOp.andi_eq_one.1 hn
  have hge' : (0#32 : BitVec 32).toInt ≤ (a3 n).toInt := IntOp.cmpi_sge.1 hge
  have hlt' : (a3 n).toInt < (2#32 : BitVec 32).toInt := IntOp.cmpi_slt.1 hlt
  -- a signed 32-bit integer in [0, 2) is the word 0 or the word 1
  have e0 : (0#32 : BitVec 32).toInt = 0 := by decide
  have e1 : (1#32 : BitVec 32).toInt = 1 := by decide
  have e2 : (2#32 : BitVec 32).toInt = 2 := by decide
  rw [e0] at hge'
  rw [e2] at hlt'
  have hv : (a3 n).toInt = 0 ∨ (a3 n).toInt = 1 := by omega
  rcases hv with hv | hv
  · exact Or.inl (BitVec.eq_of_toInt_eq (hv.trans e0.symm))
  · exact Or.inr (BitVec.eq_of_toInt_eq (hv.trans e1.symm))

end Cert.Gcn

end
-- ==== Proof.lean ====
/-
  A two-layer graph convolution over 50000 nodes and 800000 edges, as a kernel program and as its reference.

  Both programs compute, from the edge ends `src`, `dst`, the node weights, the nodes' `significance`, a 2 × 2 embedding
  table and two dense layers (W0, b0), (W1, b1):
      o = max(1, outdeg)^(-1/2),  ι = max(1, indeg)^(-1/2),  agg x = Σ_{e : dst e = n} x[src e],
      H = leaky((agg([weight | E] · o) · ι) W0 + b0) · o,      out = (agg(H) · ι) W1 + b1,
  where E holds the table's row at each node's significance. The reference does every step on the host. The kernel
  program does the degree, feature and aggregation steps on the host too, and the two dense stages in two pipelined
  kernels over ten blocks of 5000 rows each, with the matrix products fed through the 16-bit float format; it makes E as
  a one-hot matrix times the table, and carries the first stage's output through the 16-bit format into the second
  aggregation.

  On extended reals a change of float format is the identity, a block of a row-wise stage is the stage's rows, and a
  matrix product is the same sum whether the matrix unit or the host forms it; so stage by stage the two programs apply
  the same operations to the same values (Spec.lean names the stages once; Region0 / Region1 read the kernels' blocks
  back as whole-array stages; KerStretch / KerFold walk the kernel program's host stretches; RefRun reads the reference's
  run). The one place they differ is E: a one-hot row is (1, 0) or (0, 1) only when significance is 0 or 1, and then
  its product with the table is the gathered row; outside {0, 1} the one-hot row is zero while the gather wraps and
  clamps. The statement therefore carries, beside the finiteness of the float inputs, that every significance is a valid
  index of the two-row table (0 ≤ significance < 2), and that is the only part of the precondition the proof uses.
-/
import proofs.«430867_j90091234000961_2_alg».proof.Defs
import proofs.«430867_j90091234000961_2_alg».proof.Proof.Gen.Kernel
import proofs.«430867_j90091234000961_2_alg».proof.Proof.Gen.Kernel.Skeleton
import proofs.«430867_j90091234000961_2_alg».proof.Proof.Gen.Kernel.Launch
import proofs.«430867_j90091234000961_2_alg».proof.Proof.Gen.Kernel.Points
import proofs.«430867_j90091234000961_2_alg».proof.Proof.Gen.Kernel.Frame
import proofs.«430867_j90091234000961_2_alg».proof.Proof.Gen.KernelIdeal
import proofs.«430867_j90091234000961_2_alg».proof.Proof.Gen.KernelIdeal.Skeleton
import proofs.«430867_j90091234000961_2_alg».proof.Proof.Gen.KernelIdeal.Launch
import proofs.«430867_j90091234000961_2_alg».proof.Proof.Gen.KernelIdeal.Points
import proofs.«430867_j90091234000961_2_alg».proof.Proof.Gen.KernelIdeal.Frame
import proofs.«430867_j90091234000961_2_alg».proof.Proof.Gen.ReferenceIdeal
import proofs.«430867_j90091234000961_2_alg».proof.Proof.Gen.Pre_finite_inputs
import proofs.«430867_j90091234000961_2_alg».proof.Proof.KerRun
import proofs.«430867_j90091234000961_2_alg».proof.Proof.KerFold
import proofs.«430867_j90091234000961_2_alg».proof.Proof.RefRun
import proofs.«430867_j90091234000961_2_alg».proof.Proof.Embed
import proofs.«430867_j90091234000961_2_alg».proof.Proof.PreRange
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does the kernel program read on extended reals. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.Gcn.Ref.run (F := Ideal) m ρ)

/-- The idealization rewrote no operation. -/
theorem preserves : Cert.preserves_Kernel_KernelIdeal := trivial

/-- From memories agreeing on the arguments, with every significance 0 or 1, both programs end with the network of the
    arguments in their result arrays: the kernel program's with the embedding rows made by the one-hot product and the
    bias rows by reshapes, the reference's with gathered rows and broadcast biases, and those are equal. -/
theorem algebraic : Cert.algebraic_KernelIdeal_ReferenceIdeal := by
  intro m ρ m' ρ' hpre hagree
  refine ⟨_, Cert.KernelIdeal.GenRun.run_out (F := Ideal) m ρ, ?_⟩
  refine (θ_run Cert.ReferenceIdeal.defs _ _).mono (fun _ h c => ⟨(h c).1.trans ?_, (h c).2⟩)
    (Cert.Gcn.Ref.run (F := Ideal) m' ρ')
  obtain ⟨h0, h1, h2, h3, h4, h5, h6, h7, h8⟩ := hagree c
  rw [h0, h1, h2, h3, h4, h5, h6, h7, h8]
  rw [← Cert.Gcn.embed_eq _ _ (Cert.Gcn.sig_range _ _ _ _ _ _ _ _ _ (hpre c)), ← Cert.Gcn.biasReshape_eq,
    ← Cert.Gcn.biasReshape_eq]
  exact (Cert.Gcn.KerFold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
